-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2000x80 : Shape := ⟨3, ![16, 2000, 80]⟩
abbrev S16x2000x4 : Shape := ⟨3, ![16, 2000, 4]⟩
abbrev S1024 : Shape := ⟨1, ![1024]⟩
abbrev S1024x4 : Shape := ⟨2, ![1024, 4]⟩
abbrev S_ : Shape := ⟨0, ![]⟩

class Facts : Prop where
  bcast_S_S16x2000x80 : S_.BroadcastsInDim S16x2000x80 (![] : Fin 0 → Fin S16x2000x80.rank)
  reducesTo_S16x2000x80_S_d0_1_2 : S16x2000x80.ReducesTo [0, 1, 2] S_
  h_S_ : 0 < S_.numel
  bcast_S_S16x2000x4 : S_.BroadcastsInDim S16x2000x4 (![] : Fin 0 → Fin S16x2000x4.rank)
  reducesTo_S16x2000x4_S_d0_1_2 : S16x2000x4.ReducesTo [0, 1, 2] S_
  bcast_S_S1024x4 : S_.BroadcastsInDim S1024x4 (![] : Fin 0 → Fin S1024x4.rank)
  reducesTo_S1024x4_S_d0_1 : S1024x4.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg2 : IVec S1024 32) (main_v13 : IVec S_ 1) (main_v15 : IVec S1024 1) (main_c_5 : IVec S_ 1) : IVec S_ 1 :=
  let main_v16 : IVec S_ 1 := (fun x v => Host.reduce IntOp.andi x v reducesTo_S1024_S_d0 h_S_) main_v15 main_c_5
  let main_v17 : IVec S_ 1 := andi main_v13 main_v16
  let main_c_6 : IVec S_ 32 := constantI S_ 32 80#32
  let main_v18 : IVec S1024 32 := broadcastInDim S1024 ![] bcast_S_S1024 main_c_6
  let main_v19 : IVec S1024 1 := cmpi .slt main_arg2 main_v18
  let main_c_7 : IVec S_ 1 := constantI S_ 1 1#1
  let main_v20 : IVec S_ 1 := (fun x v => Host.reduce IntOp.andi x v reducesTo_S1024_S_d0 h_S_) main_v19 main_c_7
  let main_v21 : IVec S_ 1 := andi main_v17 main_v20
  main_v21

def fn {F : FTy → Type} [FloatOps F] (main_arg0 : FVec F S16x2000x80 .f32) (main_arg1 : FVec F S16x2000x4 .f32) (main_arg2 : IVec S1024 32) (main_arg3 : FVec F S1024x4 .f32) : IVec S_ 1 :=
  let main_v0 : FVec F S16x2000x80 .f32 := Host.absf main_arg0
  let main_cst : FVec F S_ .f32 := constant S_ .f32 0x7F800000#32
  let main_v1 : FVec F S16x2000x80 .f32 := broadcastInDim S16x2000x80 ![] bcast_S_S16x2000x80 main_cst
  let main_v2 : IVec S16x2000x80 1 := cmpf .olt main_v0 main_v1
  let main_c : IVec S_ 1 := constantI S_ 1 1#1
  let main_v3 : IVec S_ 1 := (fun x v => Host.reduce IntOp.andi x v reducesTo_S16x2000x80_S_d0_1_2 h_S_) main_v2 main_c
  let main_v4 : FVec F S16x2000x4 .f32 := Host.absf main_arg1
  let main_cst_0 : FVec F S_ .f32 := constant S_ .f32 0x7F800000#32
  let main_v5 : FVec F S16x2000x4 .f32 := broadcastInDim S16x2000x4 ![] bcast_S_S16x2000x4 main_cst_0
  let main_v6 : IVec S16x2000x4 1 := cmpf .olt main_v4 main_v5
  let main_c_1 : IVec S_ 1 := constantI S_ 1 1#1
  let main_v7 : IVec S_ 1 := (fun x v => Host.reduce IntOp.andi x v reducesTo_S16x2000x4_S_d0_1_2 h_S_) main_v6 main_c_1
  let main_v8 : IVec S_ 1 := andi main_v3 main_v7
  let main_v9 : FVec F S1024x4 .f32 := Host.absf main_arg3
  let main_cst_2 : FVec F S_ .f32 := constant S_ .f32 0x7F800000#32
  let main_v10 : FVec F S1024x4 .f32 := broadcastInDim S1024x4 ![] bcast_S_S1024x4 main_cst_2
  let main_v11 : IVec S1024x4 1 := cmpf .olt main_v9 main_v10
  let main_c_3 : IVec S_ 1 := constantI S_ 1 1#1
  let main_v12 : IVec S_ 1 := (fun x v => Host.reduce IntOp.andi x v reducesTo_S1024x4_S_d0_1 h_S_) main_v11 main_c_3
  let main_v13 : IVec S_ 1 := andi main_v8 main_v12
  let main_c_4 : IVec S_ 32 := constantI S_ 32 0#32
  let main_v14 : IVec S1024 32 := broadcastInDim S1024 ![] bcast_S_S1024 main_c_4
  let main_v15 : IVec S1024 1 := cmpi .sge main_arg2 main_v14
  let main_c_5 : IVec S_ 1 := constantI S_ 1 1#1
  fn_part1 (F := F) main_arg2 main_v13 main_v15 main_c_5
-- ==== Kernel.lean ====
abbrev S16x2000x80 : Shape := ⟨3, ![16, 2000, 80]⟩
abbrev S16x2000x4 : Shape := ⟨3, ![16, 2000, 4]⟩
abbrev S1024 : Shape := ⟨1, ![1024]⟩
abbrev S1024x4 : Shape := ⟨2, ![1024, 4]⟩
abbrev S32000x80 : Shape := ⟨2, ![32000, 80]⟩
abbrev S32000x4 : Shape := ⟨2, ![32000, 4]⟩
abbrev S1024x1 : Shape := ⟨2, ![1024, 1]⟩
abbrev S1x80 : Shape := ⟨2, ![1, 80]⟩
abbrev S1024x80 : Shape := ⟨2, ![1024, 80]⟩
abbrev S80x1024 : Shape := ⟨2, ![80, 1024]⟩
abbrev S4x1024 : Shape := ⟨2, ![4, 1024]⟩
abbrev S32000x1024 : Shape := ⟨2, ![32000, 1024]⟩
abbrev S400x80 : Shape := ⟨2, ![400, 80]⟩
abbrev S400x4 : Shape := ⟨2, ![400, 4]⟩
abbrev S400x1024 : Shape := ⟨2, ![400, 1024]⟩
abbrev S400 : Shape := ⟨1, ![400]⟩
abbrev S400x1 : Shape := ⟨2, ![400, 1]⟩
abbrev S1x1024 : Shape := ⟨2, ![1, 1024]⟩
abbrev S16x2000x1024 : Shape := ⟨3, ![16, 2000, 1024]⟩

abbrev nBuf : Space → Nat
  | .hbm => 16
  | .vmem => 8
  | .smem => 0
  | _ => 0

abbrev bufTy : (tb : Table) → Fin (tcTables nBuf tb) → BufTy
  | .hbm, ⟨0, _⟩ => ⟨S16x2000x80, .f32⟩
  | .hbm, ⟨1, _⟩ => ⟨S16x2000x4, .f32⟩
  | .hbm, ⟨2, _⟩ => ⟨S1024, .i32⟩
  | .hbm, ⟨3, _⟩ => ⟨S1024x4, .f32⟩
  | .hbm, ⟨4, _⟩ => ⟨S32000x80, .f32⟩
  | .hbm, ⟨5, _⟩ => ⟨S32000x4, .f32⟩
  | .hbm, ⟨6, _⟩ => ⟨S1024x1, .i32⟩
  | .hbm, ⟨7, _⟩ => ⟨S1x80, .i32⟩
  | .hbm, ⟨8, _⟩ => ⟨S1024x80, .i32⟩
  | .hbm, ⟨9, _⟩ => ⟨S1024x80, .i32⟩
  | .hbm, ⟨10, _⟩ => ⟨S1024x80, .i1⟩
  | .hbm, ⟨11, _⟩ => ⟨S1024x80, .bf16⟩
  | .hbm, ⟨12, _⟩ => ⟨S80x1024, .bf16⟩
  | .hbm, ⟨13, _⟩ => ⟨S4x1024, .f32⟩
  | .hbm, ⟨14, _⟩ => ⟨S32000x1024, .f32⟩
  | .hbm, ⟨15, _⟩ => ⟨S16x2000x1024, .f32⟩
  | .local _ .vmem, ⟨0, _⟩ => ⟨S400x80, .f32⟩
  | .local _ .vmem, ⟨1, _⟩ => ⟨S400x80, .f32⟩
  | .local _ .vmem, ⟨2, _⟩ => ⟨S400x4, .f32⟩
  | .local _ .vmem, ⟨3, _⟩ => ⟨S400x4, .f32⟩
  | .local _ .vmem, ⟨4, _⟩ => ⟨S80x1024, .bf16⟩
  | .local _ .vmem, ⟨5, _⟩ => ⟨S4x1024, .f32⟩
  | .local _ .vmem, ⟨6, _⟩ => ⟨S400x1024, .f32⟩
  | .local _ .vmem, ⟨7, _⟩ => ⟨S400x1024, .f32⟩
  | _, _ => ⟨S16x2000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S80x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x2000x80_S32000x80 : S16x2000x80.ShapeCasts S32000x80
  shapeCasts_S16x2000x4_S32000x4 : S16x2000x4.ShapeCasts S32000x4
  bcast_S1024_S1024x1_0 : S1024.BroadcastsInDim S1024x1 (![0] : Fin 1 → Fin S1024x1.rank)
  bcast_S1024x1_S1024x80_0_1 : S1024x1.BroadcastsInDim S1024x80 (![0, 1] : Fin 2 → Fin S1024x80.rank)
  bcast_S1x80_S1024x80_0_1 : S1x80.BroadcastsInDim S1024x80 (![0, 1] : Fin 2 → Fin S1024x80.rank)
  transposes_S1024x80_S80x1024_1_0 : S1024x80.Transposes [1, 0] S80x1024
  transposes_S1024x4_S4x1024_1_0 : S1024x4.Transposes [1, 0] S4x1024
  inb_S400x80_S400x80_0_0 : ∀ a, (![0, 0] : Fin 2 → Nat) a + S400x80.size a ≤ S400x80.size a
  h_S400x80 : 0 < S400x80.numel
  shapeCasts_S400x80_S400x80 : S400x80.ShapeCasts S400x80
  reduces_S400x80_S400 : S400x80.Reduces [1] S400
  shapeCasts_S400_S400x1 : S400.ShapeCasts S400x1
  broadcasts_S400x1_S400x80 : S400x1.Broadcasts S400x80
  bitsLt_bf16_f32 : FTy.bits .bf16 < FTy.bits .f32
  inb_S80x1024_S80x1024_0_0 : ∀ a, (![0, 0] : Fin 2 → Nat) a + S80x1024.size a ≤ S80x1024.size a
  h_S80x1024 : 0 < S80x1024.numel
  shapeCasts_S80x1024_S80x1024 : S80x1024.ShapeCasts S80x1024
  inb_S400x4_S400x4_0_0 : ∀ a, (![0, 0] : Fin 2 → Nat) a + S400x4.size a ≤ S400x4.size a
  h_S400x4 : 0 < S400x4.numel
  shapeCasts_S400x4_S400x4 : S400x4.ShapeCasts S400x4
  slices_S400x4_o0_0_S400x1 : S400x4.Slices ![0, 0] S400x1
  slices_S400x4_o0_1_S400x1 : S400x4.Slices ![0, 1] S400x1
  slices_S400x4_o0_2_S400x1 : S400x4.Slices ![0, 2] S400x1
  slices_S400x4_o0_3_S400x1 : S400x4.Slices ![0, 3] S400x1
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  slices_S4x1024_o0_0_S1x1024 : S4x1024.Slices ![0, 0] S1x1024
  slices_S4x1024_o1_0_S1x1024 : S4x1024.Slices ![1, 0] S1x1024
  slices_S4x1024_o2_0_S1x1024 : S4x1024.Slices ![2, 0] S1x1024
  slices_S4x1024_o3_0_S1x1024 : S4x1024.Slices ![3, 0] S1x1024
  broadcasts_S400x1_S400x1024 : S400x1.Broadcasts S400x1024
  broadcasts_S1x1024_S400x1024 : S1x1024.Broadcasts S400x1024
  inb_S400x1024_S400x1024_0_0 : ∀ a, (![0, 0] : Fin 2 → Nat) a + S400x1024.size a ≤ S400x1024.size a
  h_S400x1024 : 0 < S400x1024.numel
  shapeCasts_S32000x1024_S16x2000x1024 : S32000x1024.ShapeCasts S16x2000x1024
  dot_S400x80_S80x1024_S400x1024_1_0_0_1_n_n_wf : DotDims.WF S400x80 S80x1024 S400x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x80.size a ≤ S32000x80.size a
  hwx0_0 : ∀ i : grid0.Coords, EltTy.bits .f32 = 32 ∨ (Rect.block (s := S32000x80) S400x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x4.size a ≤ S32000x4.size a
  hwx0_1 : ∀ i : grid0.Coords, EltTy.bits .f32 = 32 ∨ (Rect.block (s := S32000x4) S400x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S80x1024.size a ≤ S80x1024.size a
  hwx0_2 : ∀ i : grid0.Coords, EltTy.bits .bf16 = 32 ∨ (Rect.block (s := S80x1024) S80x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024.size a ≤ S4x1024.size a
  hwx0_3 : ∀ i : grid0.Coords, EltTy.bits .f32 = 32 ∨ (Rect.block (s := S4x1024) S4x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x1024.size a ≤ S32000x1024.size a
  hwx0_4 : ∀ i : grid0.Coords, EltTy.bits .f32 = 32 ∨ (Rect.block (s := S32000x1024) S400x1024.size (cc0_transform_4 i) (hinb0_4 i)).WholeWords (EltTy.packing .f32)

variable [Facts₀]

def dot_S400x80_S80x1024_S400x1024_1_0_0_1_n_n : DotDims S400x80 S80x1024 S400x1024 where
  lhsContracting := [1]
  rhsContracting := [0]
  lhsNonContracting := [0]
  rhsNonContracting := [1]
  lhsBatch := []
  rhsBatch := []
  wf := dot_S400x80_S80x1024_S400x1024_1_0_0_1_n_n_wf

abbrev win0_0 : Pipeline.Window sig grid0 :=
  Pipeline.Window.ofSpec (Memref.whole main_v0) S400x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S400x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S80x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S400x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2000x80 : Shape := ⟨3, ![16, 2000, 80]⟩
abbrev S16x2000x4 : Shape := ⟨3, ![16, 2000, 4]⟩
abbrev S1024 : Shape := ⟨1, ![1024]⟩
abbrev S1024x4 : Shape := ⟨2, ![1024, 4]⟩
abbrev S32000x80 : Shape := ⟨2, ![32000, 80]⟩
abbrev S_ : Shape := ⟨0, ![]⟩
abbrev S32000 : Shape := ⟨1, ![32000]⟩
abbrev S32000x1 : Shape := ⟨2, ![32000, 1]⟩
abbrev S32000x4 : Shape := ⟨2, ![32000, 4]⟩
abbrev S1024x1 : Shape := ⟨2, ![1024, 1]⟩
abbrev S32000x1024 : Shape := ⟨2, ![32000, 1024]⟩
abbrev S32000x1x4 : Shape := ⟨3, ![32000, 1, 4]⟩
abbrev S1x1024x4 : Shape := ⟨3, ![1, 1024, 4]⟩
abbrev S32000x1024x4 : Shape := ⟨3, ![32000, 1024, 4]⟩
abbrev S32000x2 : Shape := ⟨2, ![32000, 2]⟩
abbrev S1024x2 : Shape := ⟨2, ![1024, 2]⟩
abbrev S1x1024 : Shape := ⟨2, ![1, 1024]⟩
abbrev S16x2000x1024 : Shape := ⟨3, ![16, 2000, 1024]⟩

abbrev nBuf : Space → Nat
  | .hbm => 212
  | .vmem => 0
  | .smem => 0
  | _ => 0

abbrev hbmTy0_0 (i : Nat) : BufTy := match i % 128 with
  | 0 => ⟨S16x2000x80, .f32⟩
  | 1 => ⟨S16x2000x4, .f32⟩
  | 2 => ⟨S1024, .i32⟩
  | 3 => ⟨S1024x4, .f32⟩
  | 4 => ⟨S32000x80, .f32⟩
  | 5 => ⟨S_, .f32⟩
  | 6 => ⟨S32000, .f32⟩
  | 7 => ⟨S_, .f32⟩
  | 8 => ⟨S32000, .f32⟩
  | 9 => ⟨S32000, .f32⟩
  | 10 => ⟨S32000x1, .f32⟩
  | 11 => ⟨S32000x80, .f32⟩
  | 12 => ⟨S32000x80, .f32⟩
  | 13 => ⟨S32000x80, .f32⟩
  | 14 => ⟨S_, .f32⟩
  | 15 => ⟨S32000, .f32⟩
  | 16 => ⟨S32000x1, .f32⟩
  | 17 => ⟨S32000x80, .f32⟩
  | 18 => ⟨S32000x80, .f32⟩
  | 19 => ⟨S32000x4, .f32⟩
  | 20 => ⟨S_, .f32⟩
  | 21 => ⟨S32000x80, .f32⟩
  | 22 => ⟨S32000x80, .f32⟩
  | 23 => ⟨S_, .f32⟩
  | 24 => ⟨S32000x80, .f32⟩
  | 25 => ⟨S32000x80, .f32⟩
  | 26 => ⟨S32000x80, .f32⟩
  | 27 => ⟨S_, .f32⟩
  | 28 => ⟨S32000x80, .f32⟩
  | 29 => ⟨S32000x80, .f32⟩
  | 30 => ⟨S32000x80, .f32⟩
  | 31 => ⟨S32000x80, .f32⟩
  | 32 => ⟨S32000x80, .f32⟩
  | 33 => ⟨S_, .f32⟩
  | 34 => ⟨S32000x80, .f32⟩
  | 35 => ⟨S32000x80, .f32⟩
  | 36 => ⟨S_, .f32⟩
  | 37 => ⟨S32000x80, .f32⟩
  | 38 => ⟨S32000x80, .f32⟩
  | 39 => ⟨S_, .f32⟩
  | 40 => ⟨S32000x80, .f32⟩
  | 41 => ⟨S32000x80, .f32⟩
  | 42 => ⟨S_, .f32⟩
  | 43 => ⟨S32000x80, .f32⟩
  | 44 => ⟨S32000x80, .f32⟩
  | 45 => ⟨S32000x80, .f32⟩
  | 46 => ⟨S32000x80, .f32⟩
  | 47 => ⟨S32000x80, .f32⟩
  | 48 => ⟨S_, .i32⟩
  | 49 => ⟨S1024, .i32⟩
  | 50 => ⟨S1024, .i1⟩
  | 51 => ⟨S_, .i32⟩
  | 52 => ⟨S1024, .i32⟩
  | 53 => ⟨S1024, .i32⟩
  | 54 => ⟨S1024, .i32⟩
  | 55 => ⟨S1024x1, .i32⟩
  | 56 => ⟨S32000x1024, .f32⟩
  | 57 => ⟨S_, .i32⟩
  | 58 => ⟨S1024, .i32⟩
  | 59 => ⟨S1024, .i1⟩
  | 60 => ⟨S_, .i32⟩
  | 61 => ⟨S1024, .i32⟩
  | 62 => ⟨S1024, .i32⟩
  | 63 => ⟨S1024, .i32⟩
  | 64 => ⟨S1024x1, .i32⟩
  | 65 => ⟨S32000x1024, .f32⟩
  | 66 => ⟨S32000x1024, .f32⟩
  | 67 => ⟨S32000x1x4, .f32⟩
  | 68 => ⟨S1x1024x4, .f32⟩
  | 69 => ⟨S32000x1024x4, .f32⟩
  | 70 => ⟨S32000x1024x4, .f32⟩
  | 71 => ⟨S32000x1024x4, .f32⟩
  | 72 => ⟨S32000x1024x4, .f32⟩
  | 73 => ⟨S_, .f32⟩
  | 74 => ⟨S32000x1024, .f32⟩
  | 75 => ⟨S32000x2, .f32⟩
  | 76 => ⟨S32000x1, .f32⟩
  | 77 => ⟨S32000, .f32⟩
  | 78 => ⟨S32000x1, .f32⟩
  | 79 => ⟨S32000, .f32⟩
  | 80 => ⟨S_, .f32⟩
  | 81 => ⟨S32000, .f32⟩
  | 82 => ⟨S32000, .f32⟩
  | 83 => ⟨S32000, .f32⟩
  | 84 => ⟨S_, .f32⟩
  | 85 => ⟨S32000, .f32⟩
  | 86 => ⟨S32000, .f32⟩
  | 87 => ⟨S32000, .f32⟩
  | 88 => ⟨S32000x1, .f32⟩
  | 89 => ⟨S32000x1, .f32⟩
  | 90 => ⟨S32000x2, .f32⟩
  | 91 => ⟨S1024x2, .f32⟩
  | 92 => ⟨S1024x1, .f32⟩
  | 93 => ⟨S1024, .f32⟩
  | 94 => ⟨S1024x1, .f32⟩
  | 95 => ⟨S1024, .f32⟩
  | 96 => ⟨S_, .f32⟩
  | 97 => ⟨S1024, .f32⟩
  | 98 => ⟨S1024, .f32⟩
  | 99 => ⟨S1024, .f32⟩
  | 100 => ⟨S_, .f32⟩
  | 101 => ⟨S1024, .f32⟩
  | 102 => ⟨S1024, .f32⟩
  | 103 => ⟨S1024, .f32⟩
  | 104 => ⟨S1024x1, .f32⟩
  | 105 => ⟨S1024x1, .f32⟩
  | 106 => ⟨S1024x2, .f32⟩
  | 107 => ⟨S32000x1, .f32⟩
  | 108 => ⟨S32000, .f32⟩
  | 109 => ⟨S32000x1, .f32⟩
  | 110 => ⟨S1024x1, .f32⟩
  | 111 => ⟨S1024, .f32⟩
  | 112 => ⟨S1x1024, .f32⟩
  | 113 => ⟨S32000x1024, .f32⟩
  | 114 => ⟨S32000x1024, .f32⟩
  | 115 => ⟨S32000x1024, .f32⟩
  | 116 => ⟨S32000x1, .f32⟩
  | 117 => ⟨S32000, .f32⟩
  | 118 => ⟨S32000x1, .f32⟩
  | 119 => ⟨S1024x1, .f32⟩
  | 120 => ⟨S1024, .f32⟩
  | 121 => ⟨S1x1024, .f32⟩
  | 122 => ⟨S32000x1024, .f32⟩
  | 123 => ⟨S32000x1024, .f32⟩
  | 124 => ⟨S32000x1024, .f32⟩
  | 125 => ⟨S32000x1024, .f32⟩
  | 126 => ⟨S_, .f32⟩
  | 127 => ⟨S_, .f32⟩
  | _ => ⟨S16x2000x80, .f32⟩

abbrev hbmTy0_1 (i : Nat) : BufTy := match i % 128 with
  | 0 => ⟨S32000x1024, .f32⟩
  | 1 => ⟨S32000x1024, .f32⟩
  | 2 => ⟨S32000x1, .f32⟩
  | 3 => ⟨S32000, .f32⟩
  | 4 => ⟨S32000x1, .f32⟩
  | 5 => ⟨S32000, .f32⟩
  | 6 => ⟨S32000, .f32⟩
  | 7 => ⟨S32000x1, .f32⟩
  | 8 => ⟨S1024x1, .f32⟩
  | 9 => ⟨S1024, .f32⟩
  | 10 => ⟨S1024x1, .f32⟩
  | 11 => ⟨S1024, .f32⟩
  | 12 => ⟨S1024, .f32⟩
  | 13 => ⟨S1x1024, .f32⟩
  | 14 => ⟨S32000x1024, .f32⟩
  | 15 => ⟨S32000x1024, .f32⟩
  | 16 => ⟨S32000x1024, .f32⟩
  | 17 => ⟨S32000x1024, .f32⟩
  | 18 => ⟨S_, .f32⟩
  | 19 => ⟨S32000x1024, .f32⟩
  | 20 => ⟨S32000x1024, .f32⟩
  | 21 => ⟨S32000x1024, .f32⟩
  | 22 => ⟨S32000x2, .f32⟩
  | 23 => ⟨S1024x2, .f32⟩
  | 24 => ⟨S32000x1, .f32⟩
  | 25 => ⟨S32000, .f32⟩
  | 26 => ⟨S32000x1, .f32⟩
  | 27 => ⟨S1024x1, .f32⟩
  | 28 => ⟨S1024, .f32⟩
  | 29 => ⟨S1x1024, .f32⟩
  | 30 => ⟨S32000x1024, .f32⟩
  | 31 => ⟨S32000x1024, .f32⟩
  | 32 => ⟨S32000x1024, .f32⟩
  | 33 => ⟨S32000x1, .f32⟩
  | 34 => ⟨S32000, .f32⟩
  | 35 => ⟨S32000x1, .f32⟩
  | 36 => ⟨S1024x1, .f32⟩
  | 37 => ⟨S1024, .f32⟩
  | 38 => ⟨S1x1024, .f32⟩
  | 39 => ⟨S32000x1024, .f32⟩
  | 40 => ⟨S32000x1024, .f32⟩
  | 41 => ⟨S32000x1024, .f32⟩
  | 42 => ⟨S32000x1024, .f32⟩
  | 43 => ⟨S_, .f32⟩
  | 44 => ⟨S_, .f32⟩
  | 45 => ⟨S32000x1024, .f32⟩
  | 46 => ⟨S32000x1024, .f32⟩
  | 47 => ⟨S32000x1, .f32⟩
  | 48 => ⟨S32000, .f32⟩
  | 49 => ⟨S32000x1, .f32⟩
  | 50 => ⟨S32000, .f32⟩
  | 51 => ⟨S32000, .f32⟩
  | 52 => ⟨S32000x1, .f32⟩
  | 53 => ⟨S1024x1, .f32⟩
  | 54 => ⟨S1024, .f32⟩
  | 55 => ⟨S1024x1, .f32⟩
  | 56 => ⟨S1024, .f32⟩
  | 57 => ⟨S1024, .f32⟩
  | 58 => ⟨S1x1024, .f32⟩
  | 59 => ⟨S32000x1024, .f32⟩
  | 60 => ⟨S32000x1024, .f32⟩
  | 61 => ⟨S32000x1024, .f32⟩
  | 62 => ⟨S32000x1024, .f32⟩
  | 63 => ⟨S_, .f32⟩
  | 64 => ⟨S32000x1024, .f32⟩
  | 65 => ⟨S32000x1024, .f32⟩
  | 66 => ⟨S32000x1024, .f32⟩
  | 67 => ⟨S32000x1024, .f32⟩
  | 68 => ⟨S32000x1024, .f32⟩
  | 69 => ⟨S_, .f32⟩
  | 70 => ⟨S32000x1024, .f32⟩
  | 71 => ⟨S32000x1024, .f32⟩
  | 72 => ⟨S_, .f32⟩
  | 73 => ⟨S32000x1024, .f32⟩
  | 74 => ⟨S32000x1024, .f32⟩
  | 75 => ⟨S_, .f32⟩
  | 76 => ⟨S32000x1024, .f32⟩
  | 77 => ⟨S32000x1024, .f32⟩
  | 78 => ⟨S32000x1024, .f32⟩
  | 79 => ⟨S_, .f32⟩
  | 80 => ⟨S32000x1024, .f32⟩
  | 81 => ⟨S32000x1024, .f32⟩
  | 82 => ⟨S32000x1024, .f32⟩
  | 83 => ⟨S16x2000x1024, .f32⟩
  | _ => ⟨S16x2000x80, .f32⟩

abbrev hbmTy (i : Nat) : BufTy := match i / 128 with
  | 0 => hbmTy0_0 i
  | 1 => hbmTy0_1 i
  | _ => ⟨S16x2000x80, .f32⟩

abbrev bufTy : (tb : Table) → Fin (tcTables nBuf tb) → BufTy
  | .hbm, ⟨i, _⟩ => hbmTy i
  | _, _ => ⟨S16x2000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c : Ref sig .tc := ⟨.hbm, 48, rfl⟩
abbrev main_v34 : Ref sig .tc := ⟨.hbm, 49, rfl⟩
abbrev main_v35 : Ref sig .tc := ⟨.hbm, 50, rfl⟩
abbrev main_c_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_10 : Ref sig .tc := ⟨.hbm, 57, rfl⟩
abbrev main_v41 : Ref sig .tc := ⟨.hbm, 58, rfl⟩
abbrev main_v42 : Ref sig .tc := ⟨.hbm, 59, rfl⟩
abbrev main_c_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_13 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_14 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_15 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_16 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_17 : Ref sig .tc := ⟨.hbm, 126, rfl⟩
abbrev main_call0_v0 : Ref sig .tc := ⟨.hbm, 127, rfl⟩
abbrev main_call0_v1 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_cst_18 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_cst_19 : Ref sig .tc := ⟨.hbm, 171, rfl⟩
abbrev main_call1_v0 : Ref sig .tc := ⟨.hbm, 172, rfl⟩
abbrev main_call1_v1 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_cst_20 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_cst_21 : Ref sig .tc := ⟨.hbm, 197, rfl⟩
abbrev main_v166 : Ref sig .tc := ⟨.hbm, 198, rfl⟩
abbrev main_v167 : Ref sig .tc := ⟨.hbm, 199, rfl⟩
abbrev main_cst_22 : Ref sig .tc := ⟨.hbm, 200, rfl⟩
abbrev main_v168 : Ref sig .tc := ⟨.hbm, 201, rfl⟩
abbrev main_v169 : Ref sig .tc := ⟨.hbm, 202, rfl⟩
abbrev main_cst_23 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_cst_24 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩

abbrev nD : Nat := 1
abbrev τ : Topo := Topo.v7x

variable {F : FTy → Type} [FloatOps F]

class Facts₀ : Prop where
  shapeCasts_S16x2000x80_S32000x80 : S16x2000x80.ShapeCasts S32000x80
  reducesTo_S32000x80_S32000_d1 : S32000x80.ReducesTo [1] S32000
  h_S_ : 0 < S_.numel
  bcast_S_S32000 : S_.BroadcastsInDim S32000 (![] : Fin 0 → Fin S32000.rank)
  bcast_S32000_S32000x1_0 : S32000.BroadcastsInDim S32000x1 (![0] : Fin 1 → Fin S32000x1.rank)
  bcast_S32000x1_S32000x80_0_1 : S32000x1.BroadcastsInDim S32000x80 (![0, 1] : Fin 2 → Fin S32000x80.rank)
  shapeCasts_S16x2000x4_S32000x4 : S16x2000x4.ShapeCasts S32000x4
  bcast_S_S32000x80 : S_.BroadcastsInDim S32000x80 (![] : Fin 0 → Fin S32000x80.rank)
  bcast_S_S1024 : S_.BroadcastsInDim S1024 (![] : Fin 0 → Fin S1024.rank)
  bcast_S1024_S1024x1_0 : S1024.BroadcastsInDim S1024x1 (![0] : Fin 1 → Fin S1024x1.rank)
  bcast_S32000x4_S32000x1x4_0_2 : S32000x4.BroadcastsInDim S32000x1x4 (![0, 2] : Fin 2 → Fin S32000x1x4.rank)
  bcast_S1024x4_S1x1024x4_1_2 : S1024x4.BroadcastsInDim S1x1024x4 (![1, 2] : Fin 2 → Fin S1x1024x4.rank)
  bcast_S32000x1x4_S32000x1024x4_0_1_2 : S32000x1x4.BroadcastsInDim S32000x1024x4 (![0, 1, 2] : Fin 3 → Fin S32000x1024x4.rank)
  bcast_S1x1024x4_S32000x1024x4_0_1_2 : S1x1024x4.BroadcastsInDim S32000x1024x4 (![0, 1, 2] : Fin 3 → Fin S32000x1024x4.rank)
  reducesTo_S32000x1024x4_S32000x1024_d2 : S32000x1024x4.ReducesTo [2] S32000x1024
  slices_S32000x4_S32000x2_0_2 : S32000x4.Slices ![0, 2] S32000x2
  slices_S32000x2_S32000x1_0_0 : S32000x2.Slices ![0, 0] S32000x1
  shapeCasts_S32000x1_S32000 : S32000x1.ShapeCasts S32000
  slices_S32000x2_S32000x1_0_1 : S32000x2.Slices ![0, 1] S32000x1
  concatenates_S32000x1_S32000x1_S32000x2_d1 : Shape.Concatenates [S32000x1, S32000x1] S32000x2 1
  slices_S1024x4_S1024x2_0_2 : S1024x4.Slices ![0, 2] S1024x2
  slices_S1024x2_S1024x1_0_0 : S1024x2.Slices ![0, 0] S1024x1
  shapeCasts_S1024x1_S1024 : S1024x1.ShapeCasts S1024
  slices_S1024x2_S1024x1_0_1 : S1024x2.Slices ![0, 1] S1024x1
  concatenates_S1024x1_S1024x1_S1024x2_d1 : Shape.Concatenates [S1024x1, S1024x1] S1024x2 1
  bcast_S1024_S1x1024_1 : S1024.BroadcastsInDim S1x1024 (![1] : Fin 1 → Fin S1x1024.rank)
  bcast_S32000x1_S32000x1024_0_1 : S32000x1.BroadcastsInDim S32000x1024 (![0, 1] : Fin 2 → Fin S32000x1024.rank)
  bcast_S1x1024_S32000x1024_0_1 : S1x1024.BroadcastsInDim S32000x1024 (![0, 1] : Fin 2 → Fin S32000x1024.rank)
  bcast_S_S32000x1024 : S_.BroadcastsInDim S32000x1024 (![] : Fin 0 → Fin S32000x1024.rank)
  slices_S32000x4_S32000x2_0_0 : S32000x4.Slices ![0, 0] S32000x2
  slices_S1024x4_S1024x2_0_0 : S1024x4.Slices ![0, 0] S1024x2
  shapeCasts_S32000x1024_S16x2000x1024 : S32000x1024.ShapeCasts S16x2000x1024
  gather_S32000x80_S1024x1_S32000x1024_0_1_n_n_1_1_320001_wf : GatherDims.WF S32000x80 S1024x1 S32000x1024 [0] [1] [] [1] [] 1 ![32000, 1]

variable [Facts₀]

def gather_S32000x80_S1024x1_S32000x1024_0_1_n_n_1_1_320001 : GatherDims S32000x80 S1024x1 S32000x1024 where
  offsetDims := [0]
  collapsedSliceDims := [1]
  operandBatchingDims := []
  startIndicesBatchingDims := []
  startIndexMap := [1]
  indexVectorDim := 1
  sliceSizes := ![32000, 1]
  wf := gather_S32000x80_S1024x1_S32000x1024_0_1_n_n_1_1_320001_wf

class Facts : Prop extends Facts₀ where

variable [Facts]
-- ==== Proof.MatchCost.lean ====
/-
  The matching cost of one (query, target) pair over the extended reals, entry by entry.

  A query row carries 80 class logits `f` and a box `a = (t1, t2, c, w)`; a target carries a class label `id` and a
  box `b`. With `p = softmax f` (the row's maximum subtracted before `exp`), the cost is

      L1(a, b)  +  focal(p)[id]  +  ( -(IoU(centre-width segments) + IoU(raw segments)) / 2 ),

  where `focal(p) = 1/4 (1-p)^2 (-log (p+ε)) - 3/4 p^2 (-log1p (-p+ε))`.

  Two spellings of that number are compared here.  The first multiplies squares out (`p * p`), picks the class entry
  by a sum against a 0/1 indicator of the label, subtracts from zero where the second negates, and halves by a
  product with 1/2.  The second raises to the power `2` (`Ideal.pow`), reads the class entry at the label
  (negative labels wrapped once, then clamped into the class range), and halves by a quotient by `2`.
  They are one number when every logit is a real number (the square and the power `2` differ only at `-∞`) and the
  label lies in `[0, 80)` (outside it the indicator sum is `0` while the clamped read is a real class's entry).
-/
import Idealize.ShloMosaic.PureOps.Ideal
import Idealize.ShloMosaic.PureOps.Ideal.Laws

noncomputable section

namespace Cert.MatchCost

open Idealize.ShloMosaic

/-! ## The float words the two programs spell, as extended reals -/

theorem one_val : Ideal.ofBits .f32 0x3F800000#32 = 1 := by
  simp [Ideal.ofBits, Ideal.ieee, -EReal.coe_mul]; norm_num

theorem two_val : Ideal.ofBits .f32 0x40000000#32 = ((2 : ℝ) : EReal) := by
  simp [Ideal.ofBits, Ideal.ieee, -EReal.coe_mul]; norm_num

theorem half_val : Ideal.ofBits .f32 0x3F000000#32 = ((1 / 2 : ℝ) : EReal) := by
  simp [Ideal.ofBits, Ideal.ieee, -EReal.coe_mul]; norm_num

theorem negInf_val : Ideal.ofBits .f32 0xFF800000#32 = ⊥ := by
  simp [Ideal.ofBits, Ideal.ieee]

/-- Subtracting from the zero word is negation, at every extended real. -/
theorem zero_sub_val (x : EReal) : Ideal.ofBits .f32 0x00000000#32 - x = -x := by
  rw [Ideal.ofBits_zero_f32, zero_sub]

/-- The maximum with the `-∞` word on the left changes nothing. -/
theorem negInf_max (x : EReal) : max (Ideal.ofBits .f32 0xFF800000#32) x = x := by
  rw [negInf_val]; exact max_eq_right bot_le

/-- On a real number the power `2` is the square. -/
theorem pow_two_real (r : ℝ) :
    Ideal.pow (r : EReal) (Ideal.ofBits .f32 0x40000000#32) = (r : EReal) * (r : EReal) := by
  rw [two_val]
  show ((Real.rpow r 2 : ℝ) : EReal) = _
  rw [← EReal.coe_mul]
  congr 1
  show r ^ (2 : ℝ) = r * r
  rw [Real.rpow_two, sq]

/-- The quotient by the word `2` is the product with the word `1/2`, at every extended real. -/
theorem div_two (x : EReal) :
    Ideal.div x (Ideal.ofBits .f32 0x40000000#32) = x * Ideal.ofBits .f32 0x3F000000#32 := by
  rw [two_val, half_val, Ideal.div_coe (by norm_num : (2 : ℝ) ≠ 0)]

/-- A finite sum of real numbers, taken in the extended reals, is the real sum. -/
theorem coe_sum {ι : Type} (s : Finset ι) (g : ι → ℝ) : (∑ i ∈ s, ((g i : ℝ) : EReal)) = ((∑ i ∈ s, g i : ℝ) : EReal) := by
  classical
  induction s using Finset.induction_on with
  | empty => simp
  | insert i s hi ih => rw [Finset.sum_insert hi, Finset.sum_insert hi, ih, EReal.coe_add]

/-! ## The row's softmax -/

section Softmax

variable (f : Fin 80 → EReal)

/-- The row's maximum, folded from `-∞`. -/
def rowMax : EReal := (Finset.univ : Finset (Fin 80)).fold max (Ideal.ofBits .f32 0xFF800000#32) f

/-- `exp` of an entry less the row's maximum. -/
def expAt (k : Fin 80) : EReal := Ideal.exp (f k - rowMax f)

/-- The row's sum of those. -/
def expSum : EReal := ∑ k : Fin 80, expAt f k

/-- The softmax probability of class `k`. -/
def prob (k : Fin 80) : EReal := Ideal.div (expAt f k) (expSum f)

/-- When every logit of the row is a real number, so is every probability: the maximum of finitely many reals is one
    of them, `exp` of a real is a positive real, and a positive real sum divides. -/
theorem prob_real (hf : ∀ k, ∃ r : ℝ, f k = (r : EReal)) (k : Fin 80) : ∃ r : ℝ, prob f k = (r : EReal) := by
  choose g hg using hf
  have hlt : rowMax f < ⊤ := by
    unfold rowMax
    rw [Finset.fold_max_lt]
    refine ⟨by rw [negInf_val]; exact bot_lt_top, fun x _ => ?_⟩
    rw [hg]; exact EReal.coe_lt_top _
  have hgt : ⊥ < rowMax f := by
    unfold rowMax
    rw [Finset.lt_fold_max]
    exact Or.inr ⟨0, Finset.mem_univ _, by rw [hg]; exact EReal.bot_lt_coe _⟩
  obtain ⟨M, hM⟩ : ∃ M : ℝ, rowMax f = (M : EReal) :=
    ⟨(rowMax f).toReal, (EReal.coe_toReal (ne_of_lt hlt) (ne_of_gt hgt)).symm⟩
  have hexp : ∀ j, expAt f j = ((Real.exp (g j - M) : ℝ) : EReal) := fun j => by
    unfold expAt
    rw [hg, hM, ← EReal.coe_sub]
    rfl
  have hsum : expSum f = ((∑ j : Fin 80, Real.exp (g j - M) : ℝ) : EReal) := by
    unfold expSum
    rw [← coe_sum]
    exact Finset.sum_congr rfl fun j _ => hexp j
  have hpos : (0 : ℝ) < ∑ j : Fin 80, Real.exp (g j - M) :=
    Finset.sum_pos (fun j _ => Real.exp_pos _) ⟨0, Finset.mem_univ _⟩
  refine ⟨Real.exp (g k - M) * (1 / ∑ j : Fin 80, Real.exp (g j - M)), ?_⟩
  unfold prob
  rw [hsum, Ideal.div_coe (ne_of_gt hpos), hexp, ← EReal.coe_mul]

end Softmax

/-! ## The focal term of one probability -/

/-- With the squares multiplied out and the negations written as differences from zero. -/
def focalSq (p : EReal) : EReal :=
  (Ideal.ofBits .f32 0x3E800000#32 * ((Ideal.ofBits .f32 0x3F800000#32 - p) * (Ideal.ofBits .f32 0x3F800000#32 - p)))
      * (Ideal.ofBits .f32 0x00000000#32 - Ideal.log (p + Ideal.ofBits .f32 0x322BCC77#32))
    - (Ideal.ofBits .f32 0x3F400000#32 * (p * p))
      * (Ideal.ofBits .f32 0x00000000#32
          - Ideal.log1p ((Ideal.ofBits .f32 0x00000000#32 - p) + Ideal.ofBits .f32 0x322BCC77#32))

/-- The positive part with the power `2`. -/
def focalPos (p : EReal) : EReal :=
  (Ideal.ofBits .f32 0x3E800000#32 * Ideal.pow (Ideal.ofBits .f32 0x3F800000#32 - p) (Ideal.ofBits .f32 0x40000000#32))
    * (-(Ideal.log (p + Ideal.ofBits .f32 0x322BCC77#32)))

/-- The negative part with the power `2`. -/
def focalNeg (p : EReal) : EReal :=
  (Ideal.ofBits .f32 0x3F400000#32 * Ideal.pow p (Ideal.ofBits .f32 0x40000000#32))
    * (-(Ideal.log1p (-p + Ideal.ofBits .f32 0x322BCC77#32)))

/-- At a real probability the two spellings agree. -/
theorem focal_eq (r : ℝ) : focalPos (r : EReal) - focalNeg (r : EReal) = focalSq (r : EReal) := by
  unfold focalPos focalNeg focalSq
  have h1 : Ideal.ofBits .f32 0x3F800000#32 - (r : EReal) = ((1 - r : ℝ) : EReal) := by
    rw [one_val, EReal.coe_sub, EReal.coe_one]
  rw [h1, pow_two_real, pow_two_real, zero_sub_val, zero_sub_val, zero_sub_val]

/-! ## Picking the label's entry -/

/-- The 0/1 indicator that class `k` is the label. -/
def hot (id : BitVec 32) (k : Fin 80) : EReal := if id = BitVec.ofNat 32 k.val then 1 else 0

/-- The class a label reads after one wrap of the negatives and the clamp into the class range. -/
def wrapClamp (id : BitVec 32) : Nat :=
  min (if id.toInt < 0 then id + 80#32 else id).toInt.toNat 79

theorem wrapClamp_lt (id : BitVec 32) : wrapClamp id < 80 := by
  unfold wrapClamp; omega

/-- A label in the class range reads its own class. -/
theorem wrapClamp_of_range (id : BitVec 32) (h0 : 0 ≤ id.toInt) (h1 : id.toInt < 80) : wrapClamp id = id.toInt.toNat := by
  unfold wrapClamp
  rw [if_neg (not_lt.mpr h0)]
  omega

/-- A label in the class range is the word of its own class number. -/
theorem eq_ofNat_of_range (id : BitVec 32) (h0 : 0 ≤ id.toInt) (h1 : id.toInt < 80) :
    id = BitVec.ofNat 32 id.toInt.toNat := by
  apply BitVec.eq_of_toNat_eq
  have hlt : id.toNat < 2 ^ 32 := id.isLt
  have : id.toInt = (id.toNat : Int) := by
    rw [BitVec.toInt_eq_toNat_cond]
    split
    · rfl
    · rename_i h
      exfalso
      rw [BitVec.toInt_eq_toNat_cond, if_neg h] at h0
      omega
  rw [BitVec.toNat_ofNat, this, Int.toNat_natCast, Nat.mod_eq_of_lt hlt]

/-- The indicator sum of a label in the class range is the entry at the label. -/
theorem sum_hot (d : Fin 80 → EReal) (id : BitVec 32) (h0 : 0 ≤ id.toInt) (h1 : id.toInt < 80) :
    ∑ k : Fin 80, d k * hot id k = d ⟨wrapClamp id, wrapClamp_lt id⟩ := by
  have hw := wrapClamp_of_range id h0 h1
  have hid := eq_ofNat_of_range id h0 h1
  rw [Finset.sum_eq_single (⟨wrapClamp id, wrapClamp_lt id⟩ : Fin 80)]
  · unfold hot
    rw [if_pos (show id = BitVec.ofNat 32 (wrapClamp id) by rw [hw]; exact hid), mul_one]
  · intro k _ hk
    unfold hot
    rw [if_neg, mul_zero]
    intro he
    apply hk
    apply Fin.ext
    show k.val = wrapClamp id
    rw [hw]
    have := congrArg BitVec.toNat he
    rw [BitVec.toNat_ofNat, Nat.mod_eq_of_lt (by have := k.isLt; omega)] at this
    have h2 : id.toInt = (id.toNat : Int) := by
      rw [BitVec.toInt_eq_toNat_cond]
      split
      · rfl
      · rename_i h
        exfalso
        rw [BitVec.toInt_eq_toNat_cond, if_neg h] at h0
        omega
    rw [h2, Int.toNat_natCast]; exact this.symm
  · intro h; exact absurd (Finset.mem_univ _) h

/-! ## The box terms -/

/-- Intersection over union of the segments `[lo₁, hi₁]` and `[lo₂, hi₂]`, the union floored at `ε`. -/
def iou (lo₁ hi₁ lo₂ hi₂ : EReal) : EReal :=
  Ideal.div (max (min hi₁ hi₂ - max lo₁ lo₂) (Ideal.ofBits .f32 0x00000000#32))
    (max (((hi₁ - lo₁) + (hi₂ - lo₂)) - max (min hi₁ hi₂ - max lo₁ lo₂) (Ideal.ofBits .f32 0x00000000#32))
      (Ideal.ofBits .f32 0x322BCC77#32))

/-- The same with the intersection's floor at zero written the other way round. -/
theorem iou_comm (lo₁ hi₁ lo₂ hi₂ : EReal) :
    Ideal.div (max (Ideal.ofBits .f32 0x00000000#32) (min hi₁ hi₂ - max lo₁ lo₂))
      (max (((hi₁ - lo₁) + (hi₂ - lo₂)) - max (Ideal.ofBits .f32 0x00000000#32) (min hi₁ hi₂ - max lo₁ lo₂))
        (Ideal.ofBits .f32 0x322BCC77#32))
    = iou lo₁ hi₁ lo₂ hi₂ := by
  unfold iou
  rw [max_comm (Ideal.ofBits .f32 0x00000000#32)]

/-- The L1 distance of two boxes, the four terms added left to right. -/
def l1 (a b : Fin 4 → EReal) : EReal :=
  ((max (a 0 - b 0) (-(a 0 - b 0)) + max (a 1 - b 1) (-(a 1 - b 1))) + max (a 2 - b 2) (-(a 2 - b 2)))
    + max (a 3 - b 3) (-(a 3 - b 3))

/-- The same as the zero word plus the sum over the four coordinates. -/
theorem l1_sum (a b : Fin 4 → EReal) :
    Ideal.ofBits .f32 0x00000000#32 + ∑ k : Fin 4, max (a k - b k) (-(a k - b k)) = l1 a b := by
  unfold l1
  rw [Ideal.ofBits_zero_f32, zero_add, Fin.sum_univ_four]

/-- Minus the mean of the two overlaps: of the segments `c ∓ w/2` and of the raw segments `[t1, t2]`. -/
def overlap (a b : Fin 4 → EReal) : EReal :=
  (Ideal.ofBits .f32 0x00000000#32
      - (iou (a 2 - Ideal.ofBits .f32 0x3F000000#32 * a 3) (a 2 + Ideal.ofBits .f32 0x3F000000#32 * a 3)
            (b 2 - Ideal.ofBits .f32 0x3F000000#32 * b 3) (b 2 + Ideal.ofBits .f32 0x3F000000#32 * b 3)
          + iou (a 0) (a 1) (b 0) (b 1)))
    * Ideal.ofBits .f32 0x3F000000#32

/-- The same with a negation and a quotient by `2`. -/
theorem overlap_div (a b : Fin 4 → EReal) :
    Ideal.div
      (-(iou (a 2 - Ideal.ofBits .f32 0x3F000000#32 * a 3) (a 2 + Ideal.ofBits .f32 0x3F000000#32 * a 3)
            (b 2 - Ideal.ofBits .f32 0x3F000000#32 * b 3) (b 2 + Ideal.ofBits .f32 0x3F000000#32 * b 3)
          + iou (a 0) (a 1) (b 0) (b 1)))
      (Ideal.ofBits .f32 0x40000000#32)
    = overlap a b := by
  unfold overlap
  rw [div_two, zero_sub_val]

/-! ## The cost -/

/-- The cost, the class entry picked by a sum against a weight per class over the multiplied-out focal term. -/
def costWith (f : Fin 80 → EReal) (a : Fin 4 → EReal) (h : Fin 80 → EReal) (b : Fin 4 → EReal) : EReal :=
  (Ideal.ofBits .f32 0x3F800000#32 * l1 a b
      + Ideal.ofBits .f32 0x3F800000#32 * ∑ k : Fin 80, focalSq (prob f k) * h k)
    + Ideal.ofBits .f32 0x3F800000#32 * overlap a b

/-- The cost with the label's 0/1 indicator as the weights. -/
def cost (f : Fin 80 → EReal) (a : Fin 4 → EReal) (id : BitVec 32) (b : Fin 4 → EReal) : EReal :=
  costWith f a (hot id) b

/-- The cost, the class entry read at the wrapped and clamped label off the two power-`2` parts. -/
def costRead (f : Fin 80 → EReal) (a : Fin 4 → EReal) (id : BitVec 32) (b : Fin 4 → EReal) : EReal :=
  (Ideal.ofBits .f32 0x3F800000#32 * l1 a b
      + Ideal.ofBits .f32 0x3F800000#32
        * (focalPos (prob f ⟨wrapClamp id, wrapClamp_lt id⟩) - focalNeg (prob f ⟨wrapClamp id, wrapClamp_lt id⟩)))
    + Ideal.ofBits .f32 0x3F800000#32 * overlap a b

/-- One number, for real logits and a label in the class range. -/
theorem costRead_eq_cost (f : Fin 80 → EReal) (a : Fin 4 → EReal) (id : BitVec 32) (b : Fin 4 → EReal)
    (hf : ∀ k, ∃ r : ℝ, f k = (r : EReal)) (h0 : 0 ≤ id.toInt) (h1 : id.toInt < 80) :
    costRead f a id b = cost f a id b := by
  unfold costRead cost costWith
  rw [sum_hot (fun k => focalSq (prob f k)) id h0 h1]
  obtain ⟨r, hr⟩ := prob_real f hf ⟨wrapClamp id, wrapClamp_lt id⟩
  rw [hr, focal_eq]

end Cert.MatchCost

end
-- ==== Proof.CostArray.lean ====
/-
  The cost array: entry `(n, j)` is the matching cost of query row `n` (80 logits `X[n, ·]`, box `B[n, ·]`) and
  target `j` (label `ids[j]`, box `T[j, ·]`), in the two spellings of the pair cost; they are one array when every
  logit is a real number and every label lies in `[0, 80)`.
-/
import proofs.«427960_j32598801776747_1_alg».proof.Proof.MatchCost
import Idealize.ShloMosaic.Lib.ValueIdx

noncomputable section

namespace Cert.MatchCost

open Idealize.ShloMosaic Idealize.ShloMosaic.ValueIdx

/-- Entry `(n, j)`, the label's entry picked by the indicator sum. -/
def costAt (X : (⟨2, ![32000, 80]⟩ : Shape).Idx → EReal) (B : (⟨2, ![32000, 4]⟩ : Shape).Idx → EReal)
    (ids : (⟨1, ![1024]⟩ : Shape).Idx → BitVec 32) (T : (⟨2, ![1024, 4]⟩ : Shape).Idx → EReal)
    (n : Fin 32000) (j : Fin 1024) : EReal :=
  cost (fun k => X (ix2 n k)) (fun d => B (ix2 n d)) (ids (ix1 j)) (fun d => T (ix2 j d))

/-- Entry `(n, j)`, the label's entry read at the wrapped and clamped label. -/
def costReadAt (X : (⟨2, ![32000, 80]⟩ : Shape).Idx → EReal) (B : (⟨2, ![32000, 4]⟩ : Shape).Idx → EReal)
    (ids : (⟨1, ![1024]⟩ : Shape).Idx → BitVec 32) (T : (⟨2, ![1024, 4]⟩ : Shape).Idx → EReal)
    (n : Fin 32000) (j : Fin 1024) : EReal :=
  costRead (fun k => X (ix2 n k)) (fun d => B (ix2 n d)) (ids (ix1 j)) (fun d => T (ix2 j d))

/-- The whole array, first spelling. -/
def costArr (X : (⟨2, ![32000, 80]⟩ : Shape).Idx → EReal) (B : (⟨2, ![32000, 4]⟩ : Shape).Idx → EReal)
    (ids : (⟨1, ![1024]⟩ : Shape).Idx → BitVec 32) (T : (⟨2, ![1024, 4]⟩ : Shape).Idx → EReal) :
    (⟨2, ![32000, 1024]⟩ : Shape).Idx → EReal :=
  fun i => costAt X B ids T (i 0) (i 1)

/-- The whole array, second spelling. -/
def costReadArr (X : (⟨2, ![32000, 80]⟩ : Shape).Idx → EReal) (B : (⟨2, ![32000, 4]⟩ : Shape).Idx → EReal)
    (ids : (⟨1, ![1024]⟩ : Shape).Idx → BitVec 32) (T : (⟨2, ![1024, 4]⟩ : Shape).Idx → EReal) :
    (⟨2, ![32000, 1024]⟩ : Shape).Idx → EReal :=
  fun i => costReadAt X B ids T (i 0) (i 1)

theorem costArr_apply (X : (⟨2, ![32000, 80]⟩ : Shape).Idx → EReal) (B : (⟨2, ![32000, 4]⟩ : Shape).Idx → EReal)
    (ids : (⟨1, ![1024]⟩ : Shape).Idx → BitVec 32) (T : (⟨2, ![1024, 4]⟩ : Shape).Idx → EReal) (n : Fin 32000) (j : Fin 1024) :
    costArr X B ids T (ix2 n j) = costAt X B ids T n j := rfl

theorem costReadArr_apply (X : (⟨2, ![32000, 80]⟩ : Shape).Idx → EReal) (B : (⟨2, ![32000, 4]⟩ : Shape).Idx → EReal)
    (ids : (⟨1, ![1024]⟩ : Shape).Idx → BitVec 32) (T : (⟨2, ![1024, 4]⟩ : Shape).Idx → EReal) (n : Fin 32000) (j : Fin 1024) :
    costReadArr X B ids T (ix2 n j) = costReadAt X B ids T n j := rfl

/-- One array, for real logits and labels in the class range. -/
theorem costReadArr_eq (X : (⟨2, ![32000, 80]⟩ : Shape).Idx → EReal) (B : (⟨2, ![32000, 4]⟩ : Shape).Idx → EReal)
    (ids : (⟨1, ![1024]⟩ : Shape).Idx → BitVec 32) (T : (⟨2, ![1024, 4]⟩ : Shape).Idx → EReal)
    (hX : ∀ i, ∃ r : ℝ, X i = (r : EReal)) (hid : ∀ j, 0 ≤ (ids j).toInt ∧ (ids j).toInt < 80) :
    costReadArr X B ids T = costArr X B ids T := by
  funext i
  exact costRead_eq_cost _ _ _ _ (fun k => hX _) (hid _).1 (hid _).2

end Cert.MatchCost

end
-- ==== Proof.Domain.lean ====
/-
  What the printed precondition says of the argument arrays.

  The precondition is the conjunction of five statements "every element of an array satisfies a
  comparison": |x| < +∞ for every element of the three float arrays (arguments 0, 1 and 3), and
  0 ≤ l and l < 80 for every label l of the integer array (argument 2). Its value being 1 makes each
  conjunct 1, hence each compared element 1.

  Over the extended reals |x| is max x (-x) and the word 0x7F800000 denotes ⊤, so |x| < +∞ says that x
  is neither ⊤ nor ⊥: x is a real number. For a label, the signed comparisons against the words 0 and 80
  say 0 ≤ l and l < 80 of the label read as a signed integer.
-/
import proofs.«427960_j32598801776747_1_alg».proof.Pre_finite_inputs
import proofs.«427960_j32598801776747_1_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.StableHlo.Predicate
import Idealize.ShloMosaic.Lib.Affine

namespace Cert.Domain

open Idealize.ShloMosaic Cert.Pre_finite_inputs

/-- A shape of rank 0 has one index. -/
instance subsingleton_scalar_idx : Subsingleton S_.Idx := ⟨fun a b => funext fun d => d.elim0⟩

/-! ## One element -/

/-- The word 0x7F800000 is +∞: sign 0, exponent all ones, fraction 0. -/
theorem inf_word : Ideal.ofBits .f32 0x7F800000#32 = (⊤ : EReal) := by
  simp [Ideal.ofBits, Ideal.ieee]

/-- An extended real whose absolute value is below ⊤ is a real number. -/
theorem real_of_abs_lt_top (x : EReal) (hx : max x (-x) < ⊤) : ∃ r : ℝ, x = (r : EReal) := by
  induction x using EReal.rec with
  | bot => exact absurd hx (by simp)
  | coe r => exact ⟨r, rfl⟩
  | top => exact absurd hx (by simp)

/-- The float comparison read at one element: |x| < +∞ being 1 makes x real. -/
theorem real_of_cmp (x : EReal)
    (hx : Ideal.cmp .olt (max x (-x)) (Ideal.ofBits .f32 0x7F800000#32) = 1#1) : ∃ r : ℝ, x = (r : EReal) := by
  rw [inf_word] at hx
  simp only [Ideal.cmp, StableHlo.Predicate.ofBool_eq_one_iff, decide_eq_true_eq] at hx
  exact real_of_abs_lt_top x hx

/-- The comparison of a whole float array with the broadcast +∞, read at one index. -/
theorem real_of_all {s : Shape} (hb : S_.BroadcastsInDim s (![] : Fin 0 → Fin s.rank)) (x : FVec Ideal s .f32) (i : s.Idx)
    (e : cmpf .olt (Host.absf x) (broadcastInDim s ![] hb (constant (F := Ideal) S_ .f32 0x7F800000#32)) i = 1#1) :
    ∃ r : ℝ, x i = (r : EReal) :=
  real_of_cmp (x i) e

/-! ## The five conjuncts -/

section
variable [Facts]
open Facts

/-- The precondition's value 1 gives each of its five all-statements the value 1. -/
theorem conjuncts (a0 : FVec Ideal S16x2000x80 .f32) (a1 : FVec Ideal S16x2000x4 .f32) (a2 : IVec S1024 32)
    (a3 : FVec Ideal S1024x4 .f32) (h : fn (F := Ideal) a0 a1 a2 a3 = fun _ => 1#1) :
    (∀ i, cmpf .olt (Host.absf a0) (broadcastInDim S16x2000x80 ![] bcast_S_S16x2000x80 (constant (F := Ideal) S_ .f32 0x7F800000#32)) i = 1#1)
    ∧ (∀ i, cmpf .olt (Host.absf a1) (broadcastInDim S16x2000x4 ![] bcast_S_S16x2000x4 (constant (F := Ideal) S_ .f32 0x7F800000#32)) i = 1#1)
    ∧ (∀ i, cmpf .olt (Host.absf a3) (broadcastInDim S1024x4 ![] bcast_S_S1024x4 (constant (F := Ideal) S_ .f32 0x7F800000#32)) i = 1#1)
    ∧ (∀ j, cmpi .sge a2 (broadcastInDim S1024 ![] bcast_S_S1024 (constantI S_ 32 0#32)) j = 1#1)
    ∧ (∀ j, cmpi .slt a2 (broadcastInDim S1024 ![] bcast_S_S1024 (constantI S_ 32 80#32)) j = 1#1) := by
  have h0 := congrFun h ValueIdx.ix0
  dsimp only [fn, fn_part1] at h0
  obtain ⟨h1, e4⟩ := IntOp.andi_eq_one.1 h0
  obtain ⟨h2, e3⟩ := IntOp.andi_eq_one.1 h1
  obtain ⟨h3, e2⟩ := IntOp.andi_eq_one.1 h2
  obtain ⟨e0, e1⟩ := IntOp.andi_eq_one.1 h3
  exact ⟨fun i => Host.reduce_andi_all _ _ _ _ _ e0 i, fun i => Host.reduce_andi_all _ _ _ _ _ e1 i,
    fun i => Host.reduce_andi_all _ _ _ _ _ e2 i, fun j => Host.reduce_andi_all _ _ _ _ _ e3 j,
    fun j => Host.reduce_andi_all _ _ _ _ _ e4 j⟩

/-! ## The two facts the cost's laws use -/

/-- Every logit is a real number. -/
theorem logits_real (a0 : FVec Ideal Cert.Pre_finite_inputs.S16x2000x80 .f32) (a1 : FVec Ideal Cert.Pre_finite_inputs.S16x2000x4 .f32)
    (a2 : IVec Cert.Pre_finite_inputs.S1024 32) (a3 : FVec Ideal Cert.Pre_finite_inputs.S1024x4 .f32)
    (h : Cert.Pre_finite_inputs.fn (F := Ideal) a0 a1 a2 a3 = fun _ => 1#1) : ∀ i, ∃ r : ℝ, a0 i = (r : EReal) :=
  fun i => real_of_all _ a0 i ((conjuncts a0 a1 a2 a3 h).1 i)

/-- Every element of the second float array (argument 1) is a real number. -/
theorem arg1_real (a0 : FVec Ideal Cert.Pre_finite_inputs.S16x2000x80 .f32) (a1 : FVec Ideal Cert.Pre_finite_inputs.S16x2000x4 .f32)
    (a2 : IVec Cert.Pre_finite_inputs.S1024 32) (a3 : FVec Ideal Cert.Pre_finite_inputs.S1024x4 .f32)
    (h : Cert.Pre_finite_inputs.fn (F := Ideal) a0 a1 a2 a3 = fun _ => 1#1) : ∀ i, ∃ r : ℝ, a1 i = (r : EReal) :=
  fun i => real_of_all _ a1 i ((conjuncts a0 a1 a2 a3 h).2.1 i)

/-- Every element of the third float array (argument 3) is a real number. -/
theorem arg3_real (a0 : FVec Ideal Cert.Pre_finite_inputs.S16x2000x80 .f32) (a1 : FVec Ideal Cert.Pre_finite_inputs.S16x2000x4 .f32)
    (a2 : IVec Cert.Pre_finite_inputs.S1024 32) (a3 : FVec Ideal Cert.Pre_finite_inputs.S1024x4 .f32)
    (h : Cert.Pre_finite_inputs.fn (F := Ideal) a0 a1 a2 a3 = fun _ => 1#1) : ∀ i, ∃ r : ℝ, a3 i = (r : EReal) :=
  fun i => real_of_all _ a3 i ((conjuncts a0 a1 a2 a3 h).2.2.1 i)

/-- Every label, read as a signed integer, lies in [0, 80). -/
theorem labels_in_range (a0 : FVec Ideal Cert.Pre_finite_inputs.S16x2000x80 .f32) (a1 : FVec Ideal Cert.Pre_finite_inputs.S16x2000x4 .f32)
    (a2 : IVec Cert.Pre_finite_inputs.S1024 32) (a3 : FVec Ideal Cert.Pre_finite_inputs.S1024x4 .f32)
    (h : Cert.Pre_finite_inputs.fn (F := Ideal) a0 a1 a2 a3 = fun _ => 1#1) : ∀ j, 0 ≤ (a2 j).toInt ∧ (a2 j).toInt < 80 := by
  intro j
  obtain ⟨-, -, -, hge, hlt⟩ := conjuncts a0 a1 a2 a3 h
  have h1 : (0#32 : BitVec 32).toInt ≤ (a2 j).toInt := IntOp.cmpi_sge.1 (hge j)
  have h2 : (a2 j).toInt < (80#32 : BitVec 32).toInt := IntOp.cmpi_slt.1 (hlt j)
  rw [show (0#32 : BitVec 32).toInt = 0 from by decide] at h1
  rw [show (80#32 : BitVec 32).toInt = 80 from by decide] at h2
  exact ⟨h1, h2⟩

end

end Cert.Domain
-- ==== Proof.KernelBlock.lean ====
/-
  What one grid point of the idealized kernel leaves in its output block, entry by entry.

  The body loads its four whole blocks — 400 query rows of 80 class logits `x0` and of a box `x1`, and 1024 targets'
  class weights `x2` (one column per target) and boxes `x3` (one column per target) — and stores one whole block.
  Entry `(r, j)` of what it stores is the matching cost of query row `r` against target column `j`
  (`Cert.MatchCost.costWith`): the L1 distance of the two boxes, plus the row's focal term summed against the
  target's class weights (a matrix product over the 80 classes), plus minus the mean of the two overlaps.

  Each payload of the body is read at an index here: the elementwise operations read through, a slice reads the
  operand at the shifted index, a broadcast of a column or of a row reads the operand at the kept coordinate, a
  lane reduction of a row is the fold or the sum over the row's 80 entries, and the matrix product into the zero
  accumulator is the sum over the contracted coordinate.
-/
import proofs.«427960_j32598801776747_1_alg».proof.Proof.Gen.KernelIdeal.Frame
import proofs.«427960_j32598801776747_1_alg».proof.Proof.MatchCost
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Block

open Idealize.ShloMosaic Idealize.ShloMosaic.ValueIdx Cert.KernelIdeal Cert.KernelIdeal.Gen Cert.MatchCost

/-! ## Elementwise functions at an index -/

section Pointwise
variable {s : Shape} {φ : FTy}

/-- An exponential at an index is the exponential of the element. -/
theorem exp_apply (a : FVec Ideal s φ) (i : s.Idx) : exp a i = Ideal.exp (a i) := rfl
/-- A logarithm at an index is the logarithm of the element. -/
theorem log_apply (a : FVec Ideal s φ) (i : s.Idx) : log a i = Ideal.log (a i) := rfl
/-- `log (1 + ·)` at an index is that of the element. -/
theorem log1p_apply (a : FVec Ideal s φ) (i : s.Idx) : log1p a i = Ideal.log1p (a i) := rfl
/-- An absolute value at an index is the larger of the element and its negation. -/
theorem absf_apply (a : FVec Ideal s φ) (i : s.Idx) : absf a i = max (a i) (-(a i)) := rfl
/-- A scalar constant is the extended real its word encodes. -/
theorem scalar_ofBits (b : BitVec φ.bits) : (Scalar.ofBits φ b : Ideal φ) = Ideal.ofBits φ b := rfl

end Pointwise

/-! ## The column forms of a shape cast and of a broadcast -/

section Column
variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-- The zero offsets of a whole-block access, as the constant function. -/
theorem offsets_zero : (![0, 0] : Fin 2 → Nat) = fun _ => 0 := funext fun a => by fin_cases a <;> rfl

/-! ## The box blocks: their columns and rows -/

/-- The query boxes pass through a cast to their own shape. -/
theorem pay3_eq (x1 : Vec Ideal S400x4 .f32) : k0_pay3 (F := Ideal) x1 = x1 := by
  unfold k0_pay3
  exact shapeCast_self x1 _

/-- Column 0 of the query boxes. -/
theorem pay4_apply (x1 : Vec Ideal S400x4 .f32) (r : Fin 400) (u : Fin 1) :
    k0_pay4 (F := Ideal) x1 (ix2 r u) = x1 (ix2 r (0 : Fin 4)) := by
  unfold k0_pay4
  rw [pay3_eq]
  exact slice2_axis1_apply 0 x1 _ r u 0 (by have := u.isLt; show 0 = 0 + u.val; omega)

/-- Column 1 of the query boxes. -/
theorem pay5_apply (x1 : Vec Ideal S400x4 .f32) (r : Fin 400) (u : Fin 1) :
    k0_pay5 (F := Ideal) x1 (ix2 r u) = x1 (ix2 r (1 : Fin 4)) := by
  unfold k0_pay5
  rw [pay3_eq]
  exact slice2_axis1_apply 1 x1 _ r u 1 (by have := u.isLt; show 1 = 1 + u.val; omega)

/-- Column 2 of the query boxes. -/
theorem pay6_apply (v : FVec Ideal S400x4 .f32) (r : Fin 400) (u : Fin 1) :
    k0_pay6 (F := Ideal) v (ix2 r u) = v (ix2 r (2 : Fin 4)) := by
  unfold k0_pay6
  exact slice2_axis1_apply 2 v _ r u 2 (by have := u.isLt; show 2 = 2 + u.val; omega)

/-- Column 3 of the query boxes. -/
theorem pay7_apply (v : FVec Ideal S400x4 .f32) (r : Fin 400) (u : Fin 1) :
    k0_pay7 (F := Ideal) v (ix2 r u) = v (ix2 r (3 : Fin 4)) := by
  unfold k0_pay7
  exact slice2_axis1_apply 3 v _ r u 3 (by have := u.isLt; show 3 = 3 + u.val; omega)

/-- The left end of the query's centre-width segment. -/
theorem pay8_apply (v : FVec Ideal S400x4 .f32) (r : Fin 400) (u : Fin 1) :
    k0_pay8 (F := Ideal) v (ix2 r u)
      = v (ix2 r (2 : Fin 4)) - Ideal.ofBits .f32 0x3F000000#32 * v (ix2 r (3 : Fin 4)) := by
  unfold k0_pay8
  simp only [subf_apply, mulf_apply, broadcast_apply, scalar_ofBits, pay6_apply, pay7_apply]

/-- The right end of the query's centre-width segment. -/
theorem pay9_apply (v : FVec Ideal S400x4 .f32) (r : Fin 400) (u : Fin 1) :
    k0_pay9 (F := Ideal) v (ix2 r u)
      = v (ix2 r (2 : Fin 4)) + Ideal.ofBits .f32 0x3F000000#32 * v (ix2 r (3 : Fin 4)) := by
  unfold k0_pay9
  simp only [addf_apply, mulf_apply, broadcast_apply, scalar_ofBits, pay6_apply, pay7_apply]

/-- The target boxes pass through a cast to their own shape. -/
theorem pay10_eq (x3 : Vec Ideal S4x1024 .f32) : k0_pay10 (F := Ideal) x3 = x3 := by
  unfold k0_pay10
  exact shapeCast_self x3 _

/-- Row 0 of the target boxes. -/
theorem pay11_apply (x3 : Vec Ideal S4x1024 .f32) (u : Fin 1) (j : Fin 1024) :
    k0_pay11 (F := Ideal) x3 (ix2 u j) = x3 (ix2 (0 : Fin 4) j) := by
  unfold k0_pay11
  rw [pay10_eq]
  exact slice2_axis0_apply 0 x3 _ u j 0 (by have := u.isLt; show 0 = 0 + u.val; omega)

/-- Row 1 of the target boxes. -/
theorem pay12_apply (x3 : Vec Ideal S4x1024 .f32) (u : Fin 1) (j : Fin 1024) :
    k0_pay12 (F := Ideal) x3 (ix2 u j) = x3 (ix2 (1 : Fin 4) j) := by
  unfold k0_pay12
  rw [pay10_eq]
  exact slice2_axis0_apply 1 x3 _ u j 1 (by have := u.isLt; show 1 = 1 + u.val; omega)

/-- Row 2 of the target boxes. -/
theorem pay13_apply (x3 : Vec Ideal S4x1024 .f32) (u : Fin 1) (j : Fin 1024) :
    k0_pay13 (F := Ideal) x3 (ix2 u j) = x3 (ix2 (2 : Fin 4) j) := by
  unfold k0_pay13
  rw [pay10_eq]
  exact slice2_axis0_apply 2 x3 _ u j 2 (by have := u.isLt; show 2 = 2 + u.val; omega)

/-- Row 3 of the target boxes. -/
theorem pay14_apply (x3 : Vec Ideal S4x1024 .f32) (u : Fin 1) (j : Fin 1024) :
    k0_pay14 (F := Ideal) x3 (ix2 u j) = x3 (ix2 (3 : Fin 4) j) := by
  unfold k0_pay14
  rw [pay10_eq]
  exact slice2_axis0_apply 3 x3 _ u j 3 (by have := u.isLt; show 3 = 3 + u.val; omega)

/-- The left end of the target's centre-width segment. -/
theorem pay15_apply (x3 : Vec Ideal S4x1024 .f32) (u : Fin 1) (j : Fin 1024) :
    k0_pay15 (F := Ideal) x3 (ix2 u j)
      = x3 (ix2 (2 : Fin 4) j) - Ideal.ofBits .f32 0x3F000000#32 * x3 (ix2 (3 : Fin 4) j) := by
  unfold k0_pay15
  simp only [subf_apply, mulf_apply, broadcast_apply, scalar_ofBits, pay13_apply, pay14_apply]

/-- The right end of the target's centre-width segment. -/
theorem pay16_apply (x3 : Vec Ideal S4x1024 .f32) (u : Fin 1) (j : Fin 1024) :
    k0_pay16 (F := Ideal) x3 (ix2 u j)
      = x3 (ix2 (2 : Fin 4) j) + Ideal.ofBits .f32 0x3F000000#32 * x3 (ix2 (3 : Fin 4) j) := by
  unfold k0_pay16
  simp only [addf_apply, mulf_apply, broadcast_apply, scalar_ofBits, pay13_apply, pay14_apply]

/-! ## The box terms of a pair -/

/-- The L1 distance of query row `r`'s box and target column `j`'s box, the four terms added left to right. -/
theorem pay17_apply (v39 : FVec Ideal S400x4 .f32) (v40 v41 : FVec Ideal S400x1 .f32) (x3 : Vec Ideal S4x1024 .f32)
    (r : Fin 400) (j : Fin 1024) :
    k0_pay17 (F := Ideal) v39 v40 v41 x3 (ix2 r j)
      = ((max (v40 (ix2 r (0 : Fin 1)) - x3 (ix2 (0 : Fin 4) j)) (-(v40 (ix2 r (0 : Fin 1)) - x3 (ix2 (0 : Fin 4) j)))
            + max (v41 (ix2 r (0 : Fin 1)) - x3 (ix2 (1 : Fin 4) j)) (-(v41 (ix2 r (0 : Fin 1)) - x3 (ix2 (1 : Fin 4) j))))
          + max (v39 (ix2 r (2 : Fin 4)) - x3 (ix2 (2 : Fin 4) j)) (-(v39 (ix2 r (2 : Fin 4)) - x3 (ix2 (2 : Fin 4) j))))
        + max (v39 (ix2 r (3 : Fin 4)) - x3 (ix2 (3 : Fin 4) j)) (-(v39 (ix2 r (3 : Fin 4)) - x3 (ix2 (3 : Fin 4) j))) := by
  unfold k0_pay17
  simp only [addf_apply, absf_apply, subf_apply, broadcastTo_a1_ab_apply, broadcastTo_1b_ab_apply,
    pay6_apply, pay7_apply, pay11_apply, pay12_apply, pay13_apply, pay14_apply]

/-- The raw segments' intersection, floored at zero. -/
theorem pay18_apply (v40 v41 : FVec Ideal S400x1 .f32) (x3 : Vec Ideal S4x1024 .f32) (r : Fin 400) (j : Fin 1024) :
    k0_pay18 (F := Ideal) v40 v41 x3 (ix2 r j)
      = max (min (v41 (ix2 r (0 : Fin 1))) (x3 (ix2 (1 : Fin 4) j)) - max (v40 (ix2 r (0 : Fin 1))) (x3 (ix2 (0 : Fin 4) j)))
          (Ideal.ofBits .f32 0x00000000#32) := by
  unfold k0_pay18
  simp only [maximumf_apply, minimumf_apply, subf_apply, broadcast_apply, scalar_ofBits, broadcastTo_a1_ab_apply,
    broadcastTo_1b_ab_apply, pay11_apply, pay12_apply]

/-- The raw segments' two lengths, added. -/
theorem pay19_apply (v40 v41 : FVec Ideal S400x1 .f32) (x3 : Vec Ideal S4x1024 .f32) (r : Fin 400) (j : Fin 1024) :
    k0_pay19 (F := Ideal) v40 v41 x3 (ix2 r j)
      = (v41 (ix2 r (0 : Fin 1)) - v40 (ix2 r (0 : Fin 1))) + (x3 (ix2 (1 : Fin 4) j) - x3 (ix2 (0 : Fin 4) j)) := by
  unfold k0_pay19
  simp only [addf_apply, subf_apply, broadcastTo_a1_ab_apply, broadcastTo_1b_ab_apply, pay11_apply, pay12_apply]

/-- The stored value at `(r, j)` from the values before it: the L1 term `v80` and the class term `v37` each under
    the weight `1`, and minus the mean of the two overlaps — of the centre-width segments `[v46, v49]` and
    `[v58, v61]`, and of the raw segments, whose floored intersection is `v89` and whose lengths add to `v94`. -/
theorem pay1_apply (v37 : FVec Ideal S400x1024 .f32) (v46 v49 : FVec Ideal S400x1 .f32) (v58 v61 : FVec Ideal S1x1024 .f32)
    (v80 v89 v94 : FVec Ideal S400x1024 .f32) (r : Fin 400) (j : Fin 1024) :
    k0_pay1 (F := Ideal) v37 v46 v49 v58 v61 v80 v89 v94 (ix2 r j)
      = (Ideal.ofBits .f32 0x3F800000#32 * v80 (ix2 r j) + Ideal.ofBits .f32 0x3F800000#32 * v37 (ix2 r j))
        + Ideal.ofBits .f32 0x3F800000#32
          * ((Ideal.ofBits .f32 0x00000000#32
              - (iou (v46 (ix2 r (0 : Fin 1))) (v49 (ix2 r (0 : Fin 1))) (v58 (ix2 (0 : Fin 1) j)) (v61 (ix2 (0 : Fin 1) j))
                + Ideal.div (v89 (ix2 r j))
                    (max (v94 (ix2 r j) - v89 (ix2 r j)) (Ideal.ofBits .f32 0x322BCC77#32))))
            * Ideal.ofBits .f32 0x3F000000#32) := by
  unfold k0_pay1 iou
  simp only [addf_apply, mulf_apply, subf_apply, divf_apply, maximumf_apply, minimumf_apply, broadcast_apply, scalar_ofBits,
    broadcastTo_a1_ab_apply, broadcastTo_1b_ab_apply]

/-! ## The row's softmax: the two lane reductions -/

/-- The lane maximum of row `r`, folded from `-∞`, is the row's maximum. -/
theorem rowMax_apply (src : FVec Ideal S400x80 .f32) (hφ : FKind.Formats .f32)
    (hacc : (0xFF800000#32 : BitVec 32) = 0xFF800000#32) (r : Fin 400) :
    multiReduction .maximumf [1] S400 src 0xFF800000#32 reduces_S400x80_S400 hφ hacc (ix1 r)
      = rowMax (fun k => src (ix2 r k)) := by
  refine (Ideal.multiReduction_maximumf_single src 0xFF800000#32 reduces_S400x80_S400 hφ hacc (ix1 r)).trans ?_
  unfold rowMax
  refine congrArg (fun g : Fin 80 → EReal =>
    (Finset.univ : Finset (Fin 80)).fold max (Ideal.ofBits .f32 0xFF800000#32) g) ?_
  funext k
  exact congrArg src (funext fun c => Fin.ext (by
    match c with
    | ⟨0, _⟩ => rfl
    | ⟨1, _⟩ => rfl))

/-- The lane sum of row `r` is the sum over the row's 80 entries. -/
theorem rowSum_apply (src : FVec Ideal S400x80 .f32) (hφ : FKind.Formats .f32)
    (hacc : (0x00000000#32 : BitVec 32) = 0x00000000#32) (r : Fin 400) :
    multiReduction .add [1] S400 src 0x00000000#32 reduces_S400x80_S400 hφ hacc (ix1 r)
      = ∑ k : Fin 80, src (ix2 r k) := by
  refine (Ideal.multiReduction_add_single src 0x00000000#32 reduces_S400x80_S400 hφ hacc (ix1 r)).trans ?_
  refine Finset.sum_congr rfl fun k _ => ?_
  exact congrArg src (funext fun c => Fin.ext (by
    match c with
    | ⟨0, _⟩ => rfl
    | ⟨1, _⟩ => rfl))

/-! ## The class term: a matrix product over the 80 classes -/

/-- The left operand's row coordinate is the result's. -/
theorem lhs_axis0 (i : S400x1024.Idx) (q : dot_S400x80_S80x1024_S400x1024_1_0_0_1_n_n.contr.Idx) :
    (dot_S400x80_S80x1024_S400x1024_1_0_0_1_n_n.lhsIdx i q 0).val = (i 0).val := by
  unfold DotDims.lhsIdx
  rw [dif_neg (show ¬(0 : Fin S400x80.rank) ∈ dot_S400x80_S80x1024_S400x1024_1_0_0_1_n_n.lhsBatch by decide),
    dif_pos (show (0 : Fin S400x80.rank) ∈ dot_S400x80_S80x1024_S400x1024_1_0_0_1_n_n.lhsNonContracting by decide)]
  rfl

/-- The left operand's column coordinate is the contracted one. -/
theorem lhs_axis1 (i : S400x1024.Idx) (q : dot_S400x80_S80x1024_S400x1024_1_0_0_1_n_n.contr.Idx) :
    (dot_S400x80_S80x1024_S400x1024_1_0_0_1_n_n.lhsIdx i q 1).val = (q ⟨0, by decide⟩).val :=
  dot_S400x80_S80x1024_S400x1024_1_0_0_1_n_n.lhsIdx_val_of_single rfl i q

/-- The right operand's row coordinate is the contracted one. -/
theorem rhs_axis0 (i : S400x1024.Idx) (q : dot_S400x80_S80x1024_S400x1024_1_0_0_1_n_n.contr.Idx) :
    (dot_S400x80_S80x1024_S400x1024_1_0_0_1_n_n.rhsIdx i q 0).val = (q ⟨0, by decide⟩).val :=
  dot_S400x80_S80x1024_S400x1024_1_0_0_1_n_n.rhsIdx_val_of_single rfl i q

/-- The right operand's column coordinate is the result's. -/
theorem rhs_axis1 (i : S400x1024.Idx) (q : dot_S400x80_S80x1024_S400x1024_1_0_0_1_n_n.contr.Idx) :
    (dot_S400x80_S80x1024_S400x1024_1_0_0_1_n_n.rhsIdx i q 1).val = (i 1).val := by
  unfold DotDims.rhsIdx
  rw [dif_neg (show ¬(1 : Fin S80x1024.rank) ∈ dot_S400x80_S80x1024_S400x1024_1_0_0_1_n_n.rhsBatch by decide),
    dif_pos (show (1 : Fin S80x1024.rank) ∈ dot_S400x80_S80x1024_S400x1024_1_0_0_1_n_n.rhsNonContracting by decide)]
  rfl

/-- The product into the zero accumulator, at `(r, j)`: the sum over the class `k` of row `r`'s entry times column
    `j`'s. -/
theorem classDot_apply (A : FVec Ideal S400x80 .bf16) (B : FVec Ideal S80x1024 .bf16) (r : Fin 400) (j : Fin 1024) :
    matmul dot_S400x80_S80x1024_S400x1024_1_0_0_1_n_n none A B (constant (F := Ideal) S400x1024 .f32 0x00000000#32) (ix2 r j)
      = ∑ k : Fin 80, A (ix2 r k) * B (ix2 k j) := by
  simp only [matmul]
  rw [Ideal.matmul_constant_zero_apply,
    ← Equiv.sum_comp (contrEquiv1 dot_S400x80_S80x1024_S400x1024_1_0_0_1_n_n 80 rfl rfl).symm]
  refine Finset.sum_congr rfl fun k _ => ?_
  have hk := contrEquiv1_symm_val dot_S400x80_S80x1024_S400x1024_1_0_0_1_n_n 80 rfl rfl k
  have el : dot_S400x80_S80x1024_S400x1024_1_0_0_1_n_n.lhsIdx (ix2 r j)
      ((contrEquiv1 dot_S400x80_S80x1024_S400x1024_1_0_0_1_n_n 80 rfl rfl).symm k) = ix2 r k :=
    funext fun a => Fin.ext (by
      match a with
      | ⟨0, _⟩ => exact lhs_axis0 _ _
      | ⟨1, _⟩ => exact (lhs_axis1 _ _).trans hk)
  have er : dot_S400x80_S80x1024_S400x1024_1_0_0_1_n_n.rhsIdx (ix2 r j)
      ((contrEquiv1 dot_S400x80_S80x1024_S400x1024_1_0_0_1_n_n 80 rfl rfl).symm k) = ix2 k j :=
    funext fun a => Fin.ext (by
      match a with
      | ⟨0, _⟩ => exact (rhs_axis0 _ _).trans hk
      | ⟨1, _⟩ => exact rhs_axis1 _ _)
  rw [el, er]

/-- The class term at `(r, j)`: row `r`'s focal term, class by class, against target `j`'s class weights. The row's
    softmax subtracts the row's maximum before the exponential and divides by the row's sum; the narrowing of the
    focal term before the product changes nothing on the extended reals. -/
theorem pay2_apply (x0 : Vec Ideal S400x80 .f32) (x2 : Vec Ideal S80x1024 .bf16) (r : Fin 400) (j : Fin 1024) :
    k0_pay2 (F := Ideal) x0 x2 (ix2 r j)
      = ∑ k : Fin 80, focalSq (prob (fun c => x0 (ix2 r c)) k) * x2 (ix2 k j) := by
  unfold k0_pay2
  simp only [shapeCast_self]
  rw [classDot_apply]
  refine Finset.sum_congr rfl fun k _ => ?_
  refine congrArg (· * x2 (ix2 k j)) ?_
  simp only [truncf_apply, subf_apply, mulf_apply, addf_apply, divf_apply, broadcast_apply, scalar_ofBits, log_apply,
    log1p_apply, exp_apply, broadcastTo_a1_ab_apply, shapeCast_a_a1_apply]
  rw [rowSum_apply]
  simp only [subf_apply, exp_apply, broadcastTo_a1_ab_apply, shapeCast_a_a1_apply]
  rw [rowMax_apply]
  rfl

/-! ## The block -/

/-- Entry `(r, j)` of what the body stores is the matching cost of query row `r` and target column `j`. -/
theorem block_apply (x0 : Vec Ideal S400x80 .f32) (x1 : Vec Ideal S400x4 .f32) (x2 : Vec Ideal S80x1024 .bf16)
    (x3 : Vec Ideal S4x1024 .f32) (r : Fin 400) (j : Fin 1024) :
    out0_4 (F := Ideal) x0 x1 x2 x3 (ix2 r j)
      = costWith (fun k => x0 (ix2 r k)) (fun d => x1 (ix2 r d)) (fun k => x2 (ix2 k j)) (fun d => x3 (ix2 d j)) := by
  unfold out0_4
  rw [View.canon_unit_zero offsets_zero]
  simp only [View.ld_unit_zero (S := S400x80) offsets_zero, View.ld_unit_zero (S := S80x1024) offsets_zero,
    View.ld_unit_zero (S := S400x4) offsets_zero, View.ld_unit_zero (S := S4x1024) offsets_zero]
  rw [pay1_apply]
  simp only [pay2_apply, pay3_eq, pay4_apply, pay5_apply, pay8_apply, pay9_apply, pay15_apply, pay16_apply,
    pay17_apply, pay18_apply, pay19_apply]
  rfl

end Cert.KernelIdeal.Block

end
-- ==== Proof.KernelArray.lean ====
/-
  The idealized kernel's result, entry by entry.

  The program reshapes the logits and the boxes to [32000, ·], builds the 0/1 indicator table of the labels
  ([1024, 80], transposed to [80, 1024]) and transposes the target boxes to [4, 1024]; the region then runs 80 grid
  points, point `t` taking rows `400 t … 400 t + 399` of the logits and boxes and the whole of the two tables and writing
  rows `400 t … 400 t + 399` of the [32000, 1024] result; a final reshape gives [16, 2000, 1024].

  Entry `(r, j)` of what point `t` writes is the pair cost of row `400 t + r` against target `j` with the indicator
  column as the class weights; the 80 blocks tile the result, so the result array is the cost array.
-/
import proofs.«427960_j32598801776747_1_alg».proof.Proof.Gen.KernelIdeal.Frame
import proofs.«427960_j32598801776747_1_alg».proof.Proof.KernelBlock
import proofs.«427960_j32598801776747_1_alg».proof.Proof.CostArray
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.CostValue

open Idealize.ShloMosaic Idealize.ShloMosaic.TcCoe Idealize.SL.Sem Idealize.ShloMosaic.ValueIdx Idealize.ShloMosaic.StableHlo
open Cert.KernelIdeal Cert.KernelIdeal.Gen Cert.MatchCost
open Idealize.ShloMosaic.Pipeline (Dat)

variable (m : (ℓ : Loc nD τ sig) → Buf (Elt Ideal) ℓ) (ρ : Dev nD → PrngReg)

/-! ## The arrays as the region finds them -/

/-- The logits, reshaped to [32000, 80]. -/
theorem entry_logits (c : Dev nD) :
    (V m c main_v0 : S32000x80.Idx → EReal)
      = shapeCast S32000x80 (m ((c : Thread nD τ).loc main_arg0)) shapeCasts_S16x2000x80_S32000x80 := by
  dsimp only [V, V0]
  simp only [hostOps0, hostOps0_1, hostOps0_2, List.flatten_cons, List.flatten_nil, List.append_nil, List.cons_append,
    List.nil_append]
  after_results; rfl

/-- The boxes, reshaped to [32000, 4]. -/
theorem entry_boxes (c : Dev nD) :
    (V m c main_v1 : S32000x4.Idx → EReal)
      = shapeCast S32000x4 (m ((c : Thread nD τ).loc main_arg1)) shapeCasts_S16x2000x4_S32000x4 := by
  dsimp only [V, V0]
  simp only [hostOps0, hostOps0_1, hostOps0_2, List.flatten_cons, List.flatten_nil, List.append_nil, List.cons_append,
    List.nil_append]
  after_results; rfl

/-- The indicator table, transposed: the unsigned reading of `label = class`. -/
theorem entry_hot (c : Dev nD) :
    (V m c main_v3 : S80x1024.Idx → EReal)
      = transpose S80x1024 [1, 0]
          (uitofp (F := Ideal) .bf16
            (cmpi .eq
              (broadcastInDim S1024x80 ![0, 1] bcast_S1024x1_S1024x80_0_1
                (broadcastInDim S1024x1 ![0] bcast_S1024_S1024x1_0 (m ((c : Thread nD τ).loc main_arg2))))
              (broadcastInDim S1024x80 ![0, 1] bcast_S1x80_S1024x80_0_1 (iotaInDim S1x80 32 1))))
          transposes_S1024x80_S80x1024_1_0 := by
  dsimp only [V, V0]
  simp only [hostOps0, hostOps0_1, hostOps0_2, List.flatten_cons, List.flatten_nil, List.append_nil, List.cons_append,
    List.nil_append]
  after_results; rfl

/-- The target boxes, transposed to [4, 1024]. -/
theorem entry_targets (c : Dev nD) :
    (V m c main_v4 : S4x1024.Idx → EReal)
      = transpose S4x1024 [1, 0] (m ((c : Thread nD τ).loc main_arg3)) transposes_S1024x4_S4x1024_1_0 := by
  dsimp only [V, V0]
  simp only [hostOps0, hostOps0_1, hostOps0_2, List.flatten_cons, List.flatten_nil, List.append_nil, List.cons_append,
    List.nil_append]
  after_results

/-- The unsigned reading of an equality test is the 0/1 indicator. -/
theorem uitofp_eq (a b : BitVec 32) :
    FloatOps.uitofp (F := Ideal) .bf16 (IntOp.cmpi .eq a b) = if a = b then (1 : EReal) else 0 := by
  show (((IntOp.cmpi .eq a b).toNat : ℝ) : EReal) = _
  by_cases h : a = b
  · subst h; simp [IntOp.cmpi]
  · simp [IntOp.cmpi, h]

/-- Entry `(k, j)` of the transposed indicator table: is class `k` target `j`'s label. -/
theorem entry_hot_apply (c : Dev nD) (k : Fin 80) (j : Fin 1024) :
    (V m c main_v3 : S80x1024.Idx → EReal) (ix2 k j) = hot (m ((c : Thread nD τ).loc main_arg2) (ix1 j)) k := by
  rw [entry_hot]
  refine (transpose_apply [1, 0] _ transposes_S1024x80_S80x1024_1_0 (ix2 k j) (ix2 j k) (fun b => by
    match b with
    | ⟨0, _⟩ => rfl
    | ⟨1, _⟩ => rfl)).trans ?_
  have e1 : broadcastInDim S1024x80 ![0, 1] bcast_S1024x1_S1024x80_0_1
      (broadcastInDim S1024x1 ![0] bcast_S1024_S1024x1_0 (m ((c : Thread nD τ).loc main_arg2))) (ix2 j k)
      = m ((c : Thread nD τ).loc main_arg2) (ix1 j) := by
    refine (broadcastInDim_apply _ bcast_S1024x1_S1024x80_0_1 _ (ix2 j k) (ix2 j 0) (fun a => by
      match a with
      | ⟨0, _⟩ => rfl
      | ⟨1, _⟩ => rfl)).trans ?_
    exact broadcastInDim_apply _ bcast_S1024_S1024x1_0 _ (ix2 j 0) (ix1 j) (fun a => by
      match a with
      | ⟨0, _⟩ => rfl)
  have e2 : broadcastInDim S1024x80 ![0, 1] bcast_S1x80_S1024x80_0_1 (iotaInDim S1x80 32 1) (ix2 j k)
      = BitVec.ofNat 32 k.val := by
    refine (broadcastInDim_apply _ bcast_S1x80_S1024x80_0_1 _ (ix2 j k) (ix2 0 k) (fun a => by
      match a with
      | ⟨0, _⟩ => rfl
      | ⟨1, _⟩ => rfl)).trans ?_
    rfl
  show FloatOps.uitofp (F := Ideal) .bf16 (IntOp.cmpi .eq
      (broadcastInDim S1024x80 ![0, 1] bcast_S1024x1_S1024x80_0_1
        (broadcastInDim S1024x1 ![0] bcast_S1024_S1024x1_0 (m ((c : Thread nD τ).loc main_arg2))) (ix2 j k))
      (broadcastInDim S1024x80 ![0, 1] bcast_S1x80_S1024x80_0_1 (iotaInDim S1x80 32 1) (ix2 j k))) = _
  rw [e1, e2, uitofp_eq]
  rfl

/-- Entry `(d, j)` of the transposed target boxes. -/
theorem entry_targets_apply (c : Dev nD) (d : Fin 4) (j : Fin 1024) :
    (V m c main_v4 : S4x1024.Idx → EReal) (ix2 d j) = m ((c : Thread nD τ).loc main_arg3) (ix2 j d) := by
  rw [entry_targets]
  exact transpose_apply [1, 0] _ transposes_S1024x4_S4x1024_1_0 (ix2 d j) (ix2 j d) (fun b => by
    match b with
    | ⟨0, _⟩ => rfl
    | ⟨1, _⟩ => rfl)

theorem costWith_congr {f f' : Fin 80 → EReal} {a a' : Fin 4 → EReal} {h h' : Fin 80 → EReal} {b b' : Fin 4 → EReal}
    (hf : ∀ k, f k = f' k) (ha : ∀ d, a d = a' d) (hh : ∀ k, h k = h' k) (hb : ∀ d, b d = b' d) :
    costWith f a h b = costWith f' a' h' b' := by
  rw [funext hf, funext ha, funext hh, funext hb]

/-! ## What a grid point writes back -/

/-- The cost array over the region's four arrays: the class weights are the indicator table's column. -/
def blockCost (X : S32000x80.Idx → EReal) (B : S32000x4.Idx → EReal) (H : S80x1024.Idx → EReal) (Tt : S4x1024.Idx → EReal) :
    S32000x1024.Idx → EReal :=
  fun i => costWith (fun k => X (ix2 (i 0) k)) (fun d => B (ix2 (i 0) d)) (fun k => H (ix2 k (i 1))) (fun d => Tt (ix2 d (i 1)))

theorem hz : (![0, 0] : Fin 2 → Nat) = fun _ => 0 := funext fun a => by fin_cases a <;> rfl

/-- The printed index maps over the grid: point `t` takes row-block `t` of the logits, the boxes and the result, and
    block 0 of the two tables. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Every row-block of the result is some point's. -/
theorem idx_onto : ∀ q : Fin 80, ∃ t : Fin cfg0.N, win0_4.index t = ![q.val, 0] :=
  (by decide +kernel : ∀ q : Fin 80, ∃ t : Fin grid0.N, win0_4.index t = ![q.val, 0])

/-- Row `r`, column `k` of point `t`'s logits block is row `400 t + r` of the array. -/
theorem logits_block (c : Dev nD) (t : Fin cfg0.N) (r : Fin 400) (k : Fin 80) (n : Fin 32000) (hn : n.val = t.val * 400 + r.val) :
    iblk m c 0 t (ix2 r k) = (V m c main_v0 : S32000x80.Idx → EReal) (ix2 n k) := by
  obtain ⟨e0, e1, -⟩ := idx_facts t
  show (V m c main_v0 : S32000x80.Idx → EReal) (((cfg0.win 0).blk t).view.emb (ix2 r k)) = _
  congr 1
  funext a; apply Fin.ext
  match a with
  | ⟨0, _⟩ => show win0_0.index t (0 : Fin 2) * 400 + 1 * r.val = n.val; omega
  | ⟨1, _⟩ => show win0_0.index t (1 : Fin 2) * 80 + 1 * k.val = k.val; omega

/-- The same for the boxes. -/
theorem boxes_block (c : Dev nD) (t : Fin cfg0.N) (r : Fin 400) (d : Fin 4) (n : Fin 32000) (hn : n.val = t.val * 400 + r.val) :
    iblk m c 1 t (ix2 r d) = (V m c main_v1 : S32000x4.Idx → EReal) (ix2 n d) := by
  obtain ⟨-, -, e0, e1, -⟩ := idx_facts t
  show (V m c main_v1 : S32000x4.Idx → EReal) (((cfg0.win 1).blk t).view.emb (ix2 r d)) = _
  congr 1
  funext a; apply Fin.ext
  match a with
  | ⟨0, _⟩ => show win0_1.index t (0 : Fin 2) * 400 + 1 * r.val = n.val; omega
  | ⟨1, _⟩ => show win0_1.index t (1 : Fin 2) * 4 + 1 * d.val = d.val; omega

/-- The indicator table's block is the whole table. -/
theorem hot_block (c : Dev nD) (t : Fin cfg0.N) (k : Fin 80) (j : Fin 1024) :
    iblk m c 2 t (ix2 k j) = (V m c main_v3 : S80x1024.Idx → EReal) (ix2 k j) := by
  obtain ⟨-, -, -, -, e0, e1, -⟩ := idx_facts t
  show (V m c main_v3 : S80x1024.Idx → EReal) (((cfg0.win 2).blk t).view.emb (ix2 k j)) = _
  congr 1
  funext a; apply Fin.ext
  match a with
  | ⟨0, _⟩ => show win0_2.index t (0 : Fin 2) * 80 + 1 * k.val = k.val; omega
  | ⟨1, _⟩ => show win0_2.index t (1 : Fin 2) * 1024 + 1 * j.val = j.val; omega

/-- The target boxes' block is the whole table. -/
theorem targets_block (c : Dev nD) (t : Fin cfg0.N) (d : Fin 4) (j : Fin 1024) :
    iblk m c 3 t (ix2 d j) = (V m c main_v4 : S4x1024.Idx → EReal) (ix2 d j) := by
  obtain ⟨-, -, -, -, -, -, e0, e1, -⟩ := idx_facts t
  show (V m c main_v4 : S4x1024.Idx → EReal) (((cfg0.win 3).blk t).view.emb (ix2 d j)) = _
  congr 1
  funext a; apply Fin.ext
  match a with
  | ⟨0, _⟩ => show win0_3.index t (0 : Fin 2) * 4 + 1 * d.val = d.val; omega
  | ⟨1, _⟩ => show win0_3.index t (1 : Fin 2) * 1024 + 1 * j.val = j.val; omega

/-- WHAT POINT `t` WRITES BACK is block `t` of the cost array over the region's arrays. -/
theorem flushed_eq (c : Dev nD) (t : Fin cfg0.N) :
    (dats m 0 c).flushed 4 t = ((cfg0.win 4).blk t).view.read (Elt Ideal)
      (blockCost (V m c main_v0) (V m c main_v1) (V m c main_v3) (V m c main_v4)) := by
  show (cfg0.win 4).cut (grid0.coords t) ((dats m 0 c).after 4 t) = _
  rw [after0_4]
  funext y
  obtain ⟨r, j, rfl⟩ : ∃ (r : Fin 400) (j : Fin 1024), y = ix2 r j := ⟨y 0, y 1, eq_ix2 y⟩
  obtain ⟨-, -, -, -, -, -, -, -, e0, e1⟩ := idx_facts t
  have ht : t.val < 80 := lt_of_lt_of_eq t.isLt N_0
  have hr : r.val < 400 := r.isLt
  have hemb : (((cfg0.win 4).blk t).view.emb (ix2 r j) : S32000x1024.Idx) = ix2 (⟨t.val * 400 + r.val, by omega⟩ : Fin 32000) j := by
    funext a; apply Fin.ext
    match a with
    | ⟨0, _⟩ => show win0_4.index t (0 : Fin 2) * 400 + 1 * r.val = t.val * 400 + r.val; omega
    | ⟨1, _⟩ => show win0_4.index t (1 : Fin 2) * 1024 + 1 * j.val = j.val; omega
  show out0_4 (iblk m c 0 t) (iblk m c 1 t) (iblk m c 2 t) (iblk m c 3 t) (ix2 r j)
    = blockCost (V m c main_v0) (V m c main_v1) (V m c main_v3) (V m c main_v4) (((cfg0.win 4).blk t).view.emb (ix2 r j))
  refine Eq.trans ?_ (congrArg (blockCost (V m c main_v0) (V m c main_v1) (V m c main_v3) (V m c main_v4)) hemb.symm)
  refine (Cert.KernelIdeal.Block.block_apply (iblk m c 0 t) (iblk m c 1 t) (iblk m c 2 t) (iblk m c 3 t) r j).trans ?_
  exact costWith_congr (fun k => logits_block m c t r k _ rfl) (fun d => boxes_block m c t r d _ rfl)
    (fun k => hot_block m c t k j) (fun d => targets_block m c t d j)

/-- An index of the result is in point `t`'s block iff each coordinate is in the block's range on its axis. -/
theorem mem_blk (t : Fin cfg0.N) (i : S32000x1024.Idx) :
    i ∈ ((cfg0.win 4).blk t).view.set ↔ ∀ a : Fin 2, win0_4.index t a * S400x1024.size a ≤ (i a).val ∧ (i a).val < win0_4.index t a * S400x1024.size a + S400x1024.size a := by
  show i ∈ ((View.whole main_v5).slice (win0_4.rect t)).set ↔ _
  rw [View.set_slice_whole, Rect.mem_set_unit]
  exact Iff.rfl

/-- The 80 blocks tile the result: row `n` is in block `n / 400`. -/
theorem cover (i : S32000x1024.Idx) : ∃ t : Fin cfg0.N, (cfg0.win 4).flush t = true ∧ i ∈ ((cfg0.win 4).blk t).view.set := by
  have hi0 : (i 0).val < 32000 := (i 0).isLt
  have hi1 : (i 1).val < 1024 := (i 1).isLt
  obtain ⟨t, ht⟩ := idx_onto ⟨(i 0).val / 400, by omega⟩
  have q0 : win0_4.index t (0 : Fin 2) = (i 0).val / 400 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 1024 ≤ (i 1).val ∧ (i 1).val < win0_4.index t (1 : Fin 2) * 1024 + 1024; omega

/-- The cost array over the region's arrays is the cost array of the labels and the target boxes. -/
theorem blockCost_eq (c : Dev nD) :
    blockCost (V m c main_v0) (V m c main_v1) (V m c main_v3) (V m c main_v4)
      = costArr (V m c main_v0) (V m c main_v1) (m ((c : Thread nD τ).loc main_arg2)) (m ((c : Thread nD τ).loc main_arg3)) := by
  funext i
  exact costWith_congr (fun _ => rfl) (fun _ => rfl) (fun k => entry_hot_apply m c k (i 1)) (fun d => entry_targets_apply m c d (i 1))

/-- THE RESULT ARRAY of the region. -/
theorem final (c : Dev nD) :
    (dats m 0 c).arrAt 4 cfg0.N
      = costArr (V m c main_v0) (V m c main_v1) (m ((c : Thread nD τ).loc main_arg2)) (m ((c : Thread nD τ).loc main_arg3)) :=
  ((dats m 0 c).arrAt_eq_of_cover 4 _ (fun t _ => flushed_eq m c t) cover).trans (blockCost_eq m c)

/-- The program's result: the region's array reshaped to [16, 2000, 1024]. -/
theorem result_eq (c : Dev nD) :
    Pipeline.afterTail₀ cfgs (dats m) 0 (V0 m) [hostOps1] c main_v6
      = shapeCast S16x2000x1024
          (costArr (V m c main_v0) (V m c main_v1) (m ((c : Thread nD τ).loc main_arg2)) (m ((c : Thread nD τ).loc main_arg3)))
          shapeCasts_S32000x1024_S16x2000x1024 := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = costArr (V m c main_v0) (V m c main_v1) (m ((c : Thread nD τ).loc main_arg2)) (m ((c : Thread nD τ).loc main_arg3)) :=
    (Pipeline.withArrays_arr spec0 launch0.win.arr_inj c _ _ 4).trans (final m c)
  rw [hw]
  rfl

/-! ## The run, read -/

/-- Every weakly fair execution of the program ends with the result at the reshaped cost array of the reshaped
    arguments, the arguments unchanged. -/
theorem run : θ_run defs (onTc (τ := τ) (main (F := Ideal))) ⟨m, fun _ => 0, ρ⟩ fun r => ∀ c : Dev nD,
      r.2.mem ((c.tc : Thread nD τ).loc main_v6)
        = shapeCast S16x2000x1024
            (costArr (shapeCast S32000x80 (m ((c : Thread nD τ).loc main_arg0)) shapeCasts_S16x2000x80_S32000x80)
              (shapeCast S32000x4 (m ((c : Thread nD τ).loc main_arg1)) shapeCasts_S16x2000x4_S32000x4)
              (m ((c : Thread nD τ).loc main_arg2)) (m ((c : Thread nD τ).loc main_arg3)))
            shapeCasts_S32000x1024_S16x2000x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨by
        rw [(h c).2 main_v6 (Pipeline.mem_restRefs_of main_v6 (by decide) (by decide)), result_eq, entry_logits, entry_boxes],
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.CostValue

end
-- ==== Proof.ReferenceCost.lean ====
/-
  The reference program's result array, entry by entry.

  The program reshapes the logits to `[32000, 80]` and the query boxes to `[32000, 4]`, takes each row's softmax (the
  row's maximum subtracted before `exp`), forms the two focal parts of every probability, reads both at each target's
  label (negative labels wrapped once, then the gather's clamp into the class range), takes the L1 distance and the two
  segment overlaps of every (query, target) pair, and adds the three terms, each times the word `1`.  Entry `(n, j)` of
  the `[32000, 1024]` array before the final reshape is `MatchCost.costRead` of row `n` and target `j`; the whole array is
  `costReadArr` of the reshaped logits, the reshaped boxes, the labels and the target boxes.

  The chain is cut into stages, each stated at explicit coordinates `(n : Fin 32000) (k : Fin 80) (j : Fin 1024)
  (d : Fin 4)`: the softmax probability; the two focal parts; the class read; the L1 term; the two overlaps; the sum.
-/
import proofs.«427960_j32598801776747_1_alg».proof.Proof.Gen.ReferenceIdeal.Read
import proofs.«427960_j32598801776747_1_alg».proof.Proof.CostArray
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.ReferenceIdeal.CostValue

open Cert.ReferenceIdeal Cert.ReferenceIdeal.Gen Cert.ReferenceIdeal.Read Idealize.ShloMosaic Idealize.ShloMosaic.ValueIdx Cert.MatchCost

/-! ## The row's maximum and the softmax probability

Row `n` of the logits is `fun k => val_main_v0 x0 (ix2 n k)`.  The reduce with `maximum` over the class axis folds the
row from `-∞`; the maximum with a broadcast `-∞` that follows changes nothing; `exp` of the difference, the row's sum
of those (the zero word plus the sum) and the quotient are the row's softmax. -/

/-- The source index over row `n` with class `k` inserted on the reduced axis is `(n, k)`. -/
theorem lift_row (h : S32000x80.Reduces [(1 : Fin 2)] S32000) (n : Fin 32000) (k : Fin 80) :
    h.lift (ix1 n) k = ix2 n k := by
  funext a
  apply Fin.ext
  match a with
  | ⟨0, _⟩ => rfl
  | ⟨1, _⟩ => rfl

/-- The reduce with `maximum` over the class axis is the row's maximum folded from `-∞`. -/
theorem v1_at (x0 : (⟨S16x2000x80, .f32⟩ : BufTy).Contents (Elt Ideal)) (n : Fin 32000) :
    val_main_v1 (F := Ideal) x0 (ix1 n) = rowMax (fun k => val_main_v0 (F := Ideal) x0 (ix2 n k)) := by
  unfold val_main_v1 rowMax
  generalize val_main_v0 (F := Ideal) x0 = X
  have h : S32000x80.Reduces [(1 : Fin 2)] S32000 := by decide
  refine (Host.reduce_eq_fold_single (FloatOps.maximumf (F := Ideal) (φ := .f32)) X (val_main_cst (F := Ideal))
    reducesTo_S32000x80_S32000_d1 h h_S_ (ix1 n)).trans ?_
  show Finset.fold max (Ideal.ofBits .f32 0xFF800000#32) (fun k : Fin 80 => X (h.lift (ix1 n) k)) Finset.univ = _
  congr 1
  funext k
  rw [lift_row]

/-- The maximum with the broadcast `-∞` leaves the row's maximum. -/
theorem v3_at (x0 : (⟨S16x2000x80, .f32⟩ : BufTy).Contents (Elt Ideal)) (n : Fin 32000) :
    val_main_v3 (F := Ideal) x0 (ix1 n) = rowMax (fun k => val_main_v0 (F := Ideal) x0 (ix2 n k)) := by
  rw [val_main_v3_apply, val_main_v2_apply, val_main_cst_0_apply, v1_at]
  exact negInf_max _

theorem idx_v5 (n : Fin 32000) (k : Fin 80) : idx_main_v4 (idx_main_v5 (ix2 n k)) = ix1 n := by
  funext a
  match a with
  | ⟨0, _⟩ => rfl

/-- The row's maximum, broadcast along the row. -/
theorem v5_at (x0 : (⟨S16x2000x80, .f32⟩ : BufTy).Contents (Elt Ideal)) (n : Fin 32000) (k : Fin 80) :
    val_main_v5 (F := Ideal) x0 (ix2 n k) = rowMax (fun k => val_main_v0 (F := Ideal) x0 (ix2 n k)) := by
  rw [val_main_v5_apply, val_main_v4_apply, idx_v5, v3_at]

/-- `exp` of an entry less the row's maximum. -/
theorem v7_at (x0 : (⟨S16x2000x80, .f32⟩ : BufTy).Contents (Elt Ideal)) (n : Fin 32000) (k : Fin 80) :
    val_main_v7 (F := Ideal) x0 (ix2 n k) = expAt (fun k => val_main_v0 (F := Ideal) x0 (ix2 n k)) k := by
  rw [val_main_v7_apply, val_main_v6_apply, v5_at]
  rfl

theorem idx_v8 (n : Fin 32000) (k : Fin 80) : idx_main_v8 (ix1 n) k = ix2 n k := by
  funext a
  match a with
  | ⟨0, _⟩ => rfl
  | ⟨1, _⟩ => rfl

/-- The row's sum of those: the zero word plus the sum over the classes. -/
theorem v8_at (x0 : (⟨S16x2000x80, .f32⟩ : BufTy).Contents (Elt Ideal)) (n : Fin 32000) :
    val_main_v8 (F := Ideal) x0 (ix1 n) = expSum (fun k => val_main_v0 (F := Ideal) x0 (ix2 n k)) := by
  rw [val_main_v8_apply, val_main_cst_1_apply]
  show Ideal.ofBits .f32 0x00000000#32 + _ = _
  rw [Ideal.ofBits_zero_f32, zero_add]
  unfold expSum
  refine Finset.sum_congr rfl fun k _ => ?_
  rw [idx_v8, v7_at]

theorem idx_v10 (n : Fin 32000) (k : Fin 80) : idx_main_v9 (idx_main_v10 (ix2 n k)) = ix1 n := by
  funext a
  match a with
  | ⟨0, _⟩ => rfl

/-- The row's sum, broadcast along the row. -/
theorem v10_at (x0 : (⟨S16x2000x80, .f32⟩ : BufTy).Contents (Elt Ideal)) (n : Fin 32000) (k : Fin 80) :
    val_main_v10 (F := Ideal) x0 (ix2 n k) = expSum (fun k => val_main_v0 (F := Ideal) x0 (ix2 n k)) := by
  rw [val_main_v10_apply, val_main_v9_apply, idx_v10, v8_at]

/-- The softmax probability of class `k` in row `n`. -/
theorem v11_at (x0 : (⟨S16x2000x80, .f32⟩ : BufTy).Contents (Elt Ideal)) (n : Fin 32000) (k : Fin 80) :
    val_main_v11 (F := Ideal) x0 (ix2 n k) = prob (fun k => val_main_v0 (F := Ideal) x0 (ix2 n k)) k := by
  rw [val_main_v11_apply, v7_at, v10_at]
  rfl

/-! ## The two focal parts of a probability

Every constant here is a scalar broadcast, so these hold at any index of the `[32000, 80]` array. -/

/-- `1/4 · (1 - p)^2 · (-log (p + ε))`. -/
theorem v33_at (x0 : (⟨S16x2000x80, .f32⟩ : BufTy).Contents (Elt Ideal)) (i : S32000x80.Idx) :
    val_main_v33 (F := Ideal) x0 i = focalPos (val_main_v11 (F := Ideal) x0 i) := by
  rw [val_main_v33_apply, val_main_v28_apply, val_main_v27_apply, val_main_cst_7_apply, val_main_v26_apply,
    val_main_v24_apply, val_main_v23_apply, val_main_cst_5_apply, val_main_v25_apply, val_main_cst_6_apply,
    val_main_v32_apply, val_main_v31_apply, val_main_v30_apply, val_main_v29_apply, val_main_cst_8_apply]
  generalize val_main_v11 (F := Ideal) x0 i = p
  rfl

/-- `3/4 · p^2 · (-log1p (-p + ε))`. -/
theorem v22_at (x0 : (⟨S16x2000x80, .f32⟩ : BufTy).Contents (Elt Ideal)) (i : S32000x80.Idx) :
    val_main_v22 (F := Ideal) x0 i = focalNeg (val_main_v11 (F := Ideal) x0 i) := by
  rw [val_main_v22_apply, val_main_v16_apply, val_main_v15_apply, val_main_cst_3_apply, val_main_v14_apply,
    val_main_v13_apply, val_main_cst_2_apply, val_main_v21_apply, val_main_v20_apply, val_main_v19_apply,
    val_main_v17_apply, val_main_v18_apply, val_main_cst_4_apply]
  generalize val_main_v11 (F := Ideal) x0 i = p
  rfl

/-! ## The class read

The start index of target `j` is its label with eighty added once where the label, read signed, is negative; the
gather reads row `n` of its operand at the class that start index names, read signed and clamped into `[0, 79]`. That
class is `wrapClamp` of the label. -/

/-- The select on the signed test `id < 0` is the `if` on `id.toInt < 0`. -/
theorem wrap_select (id : BitVec 32) :
    Scalar.select (IntOp.cmpi .slt id 0#32) (IntOp.addi id 80#32) id = if id.toInt < 0 then id + 80#32 else id := by
  unfold Scalar.select
  by_cases h : id.toInt < 0
  · rw [if_pos h, if_pos (show IntOp.cmpi .slt id 0#32 = 1 from IntOp.cmpi_slt.mpr (by simpa using h))]
    rfl
  · rw [if_neg h, if_neg (fun hc : IntOp.cmpi .slt id 0#32 = 1 => h (by simpa using IntOp.cmpi_slt.mp hc))]

theorem idx_v39 (j : Fin 1024) : idx_main_v39 (ix2 j (0 : Fin 1)) = ix1 j := by
  funext a
  match a with
  | ⟨0, _⟩ => rfl

theorem idx_v46 (j : Fin 1024) : idx_main_v46 (ix2 j (0 : Fin 1)) = ix1 j := by
  funext a
  match a with
  | ⟨0, _⟩ => rfl

/-- The first gather's start index for target `j`. -/
theorem v39_at (x2 : (⟨S1024, .i32⟩ : BufTy).Contents (Elt Ideal)) (j : Fin 1024) :
    val_main_v39 (F := Ideal) x2 (ix2 j (0 : Fin 1))
      = if BitVec.toInt (x2 (ix1 j)) < 0 then x2 (ix1 j) + 80#32 else x2 (ix1 j) := by
  rw [val_main_v39_apply, idx_v39, val_main_v38_apply, val_main_v35_apply, val_main_v34_apply, val_main_c_apply,
    val_main_v37_apply, val_main_v36_apply, val_main_c_9_apply]
  exact wrap_select _

/-- The second gather's start index for target `j`: the same. -/
theorem v46_at (x2 : (⟨S1024, .i32⟩ : BufTy).Contents (Elt Ideal)) (j : Fin 1024) :
    val_main_v46 (F := Ideal) x2 (ix2 j (0 : Fin 1))
      = if BitVec.toInt (x2 (ix1 j)) < 0 then x2 (ix1 j) + 80#32 else x2 (ix1 j) := by
  rw [val_main_v46_apply, idx_v46, val_main_v45_apply, val_main_v42_apply, val_main_v41_apply, val_main_c_10_apply,
    val_main_v44_apply, val_main_v43_apply, val_main_c_11_apply]
  exact wrap_select _

/-- The gather's dimension numbers: rows are an offset axis, the class axis is collapsed and start-indexed, the index
    vector lies on axis 1 of the start indices. -/
abbrev gd : GatherDims S32000x80 S1024x1 S32000x1024 := gather_S32000x80_S1024x1_S32000x1024_0_1_n_n_1_1_320001

/-- The gather at `(n, j)`: row `n` of the operand at the class `c` that the start index `idx (j, 0)` names, read signed
    and clamped into `[0, 79]`. -/
theorem gather_at {α : Type} (X : S32000x80.Idx → α) (idx : IVec S1024x1 32) (n : Fin 32000) (j : Fin 1024) (c : Fin 80)
    (hc : c.val = min (BitVec.toInt (idx (ix2 j (0 : Fin 1)))).toNat 79) :
    Host.gather gather_S32000x80_S1024x1_S32000x1024_0_1_n_n_1_1_320001 X idx (ix2 n j) = X (ix2 n c) := by
  unfold Host.gather
  congr 1
  funext a
  refine Fin.ext ?_
  match a with
  | ⟨0, _⟩ =>
    -- the row axis: not start-indexed, not batching; the offset coordinate is the result's row
    show gd.start (ix2 n j) idx 0 + gd.batchCoord (ix2 n j) 0 + gd.offCoord (ix2 n j) 0 = n.val
    have h1 : gd.start (ix2 n j) idx 0 = 0 := by
      unfold GatherDims.start
      exact dif_neg (fun h => absurd (List.mem_singleton.mp h) (by decide))
    have h2 : gd.batchCoord (ix2 n j) 0 = 0 := GatherDims.batchCoord_eq_zero gd _ _ List.not_mem_nil
    have h3 : gd.offCoord (ix2 n j) 0 = n.val := by
      unfold GatherDims.offCoord
      rw [dif_pos (show (0 : Fin S32000x80.rank) ∈ gd.sKept from
        (GatherDims.mem_sKept gd _).mpr ⟨fun h => absurd (List.mem_singleton.mp h) (by decide), List.not_mem_nil⟩)]
      rfl
    omega
  | ⟨1, _⟩ =>
    -- the class axis: collapsed (no offset), not batching; the start is the clamped start index
    show gd.start (ix2 n j) idx 1 + gd.batchCoord (ix2 n j) 1 + gd.offCoord (ix2 n j) 1 = c.val
    have h2 : gd.batchCoord (ix2 n j) 1 = 0 := GatherDims.batchCoord_eq_zero gd _ _ List.not_mem_nil
    have h3 : gd.offCoord (ix2 n j) 1 = 0 :=
      GatherDims.offCoord_eq_zero gd _ _ (fun h => ((GatherDims.mem_sKept gd _).mp h).1 (List.mem_singleton.mpr rfl))
    have h1 : gd.start (ix2 n j) idx 1 = min (BitVec.toInt (idx (ix2 j (0 : Fin 1)))).toNat 79 := by
      unfold GatherDims.start
      rw [dif_pos (show (1 : Fin S32000x80.rank) ∈ gd.startIndexMap from List.mem_singleton.mpr rfl)]
      have hsi : gd.siIdx (ix2 n j) ⟨List.idxOf (1 : Fin S32000x80.rank) gd.startIndexMap,
          List.idxOf_lt_length_iff.2 (List.mem_singleton.mpr rfl)⟩ = ix2 j (0 : Fin 1) := by
        funext b
        refine Fin.ext ?_
        match b with
        | ⟨0, _⟩ => rfl
        | ⟨1, _⟩ => rfl
      rw [hsi]
      rfl
    omega

/-- The label's class is what its start index names after the clamp. -/
theorem class_of_start (id : BitVec 32) :
    wrapClamp id = min (BitVec.toInt (if id.toInt < 0 then id + 80#32 else id)).toNat 79 := rfl

/-- The gathered positive part: of the probability at the label's class. -/
theorem v40_at (x0 : (⟨S16x2000x80, .f32⟩ : BufTy).Contents (Elt Ideal)) (x2 : (⟨S1024, .i32⟩ : BufTy).Contents (Elt Ideal)) (n : Fin 32000) (j : Fin 1024) :
    val_main_v40 (F := Ideal) x0 x2 (ix2 n j)
      = focalPos (prob (fun k => val_main_v0 (F := Ideal) x0 (ix2 n k)) ⟨wrapClamp (x2 (ix1 j)), wrapClamp_lt _⟩) := by
  unfold val_main_v40
  have hc : wrapClamp (x2 (ix1 j)) = min (BitVec.toInt (val_main_v39 (F := Ideal) x2 (ix2 j (0 : Fin 1)))).toNat 79 := by
    rw [v39_at]
    exact class_of_start _
  rw [gather_at (val_main_v33 (F := Ideal) x0) (val_main_v39 (F := Ideal) x2) n j ⟨wrapClamp (x2 (ix1 j)), wrapClamp_lt _⟩ hc,
    v33_at, v11_at]

/-- The gathered negative part: of the same probability. -/
theorem v47_at (x0 : (⟨S16x2000x80, .f32⟩ : BufTy).Contents (Elt Ideal)) (x2 : (⟨S1024, .i32⟩ : BufTy).Contents (Elt Ideal)) (n : Fin 32000) (j : Fin 1024) :
    val_main_v47 (F := Ideal) x0 x2 (ix2 n j)
      = focalNeg (prob (fun k => val_main_v0 (F := Ideal) x0 (ix2 n k)) ⟨wrapClamp (x2 (ix1 j)), wrapClamp_lt _⟩) := by
  unfold val_main_v47
  have hc : wrapClamp (x2 (ix1 j)) = min (BitVec.toInt (val_main_v46 (F := Ideal) x2 (ix2 j (0 : Fin 1)))).toNat 79 := by
    rw [v46_at]
    exact class_of_start _
  rw [gather_at (val_main_v22 (F := Ideal) x0) (val_main_v46 (F := Ideal) x2) n j ⟨wrapClamp (x2 (ix1 j)), wrapClamp_lt _⟩ hc,
    v22_at, v11_at]

/-- The focal term of the pair: the positive part less the negative part. -/
theorem v48_at (x0 : (⟨S16x2000x80, .f32⟩ : BufTy).Contents (Elt Ideal)) (x2 : (⟨S1024, .i32⟩ : BufTy).Contents (Elt Ideal)) (n : Fin 32000) (j : Fin 1024) :
    val_main_v48 (F := Ideal) x0 x2 (ix2 n j)
      = focalPos (prob (fun k => val_main_v0 (F := Ideal) x0 (ix2 n k)) ⟨wrapClamp (x2 (ix1 j)), wrapClamp_lt _⟩)
        - focalNeg (prob (fun k => val_main_v0 (F := Ideal) x0 (ix2 n k)) ⟨wrapClamp (x2 (ix1 j)), wrapClamp_lt _⟩) := by
  rw [val_main_v48_apply, v40_at, v47_at]
  rfl

/-! ## The L1 term -/

theorem idx_v55 (n : Fin 32000) (j : Fin 1024) (d : Fin 4) : idx_main_v55 (ix2 n j) d = ix3 n j d := by
  funext a
  match a with
  | ⟨0, _⟩ => rfl
  | ⟨1, _⟩ => rfl
  | ⟨2, _⟩ => rfl

theorem idx_v51 (n : Fin 32000) (j : Fin 1024) (d : Fin 4) : idx_main_v49 (idx_main_v51 (ix3 n j d)) = ix2 n d := by
  funext a
  match a with
  | ⟨0, _⟩ => rfl
  | ⟨1, _⟩ => rfl

theorem idx_v52 (n : Fin 32000) (j : Fin 1024) (d : Fin 4) : idx_main_v50 (idx_main_v52 (ix3 n j d)) = ix2 j d := by
  funext a
  match a with
  | ⟨0, _⟩ => rfl
  | ⟨1, _⟩ => rfl

/-- The absolute difference of coordinate `d` of query `n`'s box and target `j`'s box. -/
theorem v54_at (x1 : (⟨S16x2000x4, .f32⟩ : BufTy).Contents (Elt Ideal)) (x3 : (⟨S1024x4, .f32⟩ : BufTy).Contents (Elt Ideal)) (n : Fin 32000) (j : Fin 1024) (d : Fin 4) :
    val_main_v54 (F := Ideal) x1 x3 (ix3 n j d)
      = max ((val_main_v12 (F := Ideal) x1 (ix2 n d) : EReal) - (x3 (ix2 j d) : EReal))
          (-((val_main_v12 (F := Ideal) x1 (ix2 n d) : EReal) - (x3 (ix2 j d) : EReal))) := by
  rw [val_main_v54_apply, val_main_v53_apply, val_main_v51_apply, val_main_v49_apply, idx_v51, val_main_v52_apply,
    val_main_v50_apply, idx_v52]
  rfl

/-- Their sum over the four coordinates. -/
theorem v55_at (x1 : (⟨S16x2000x4, .f32⟩ : BufTy).Contents (Elt Ideal)) (x3 : (⟨S1024x4, .f32⟩ : BufTy).Contents (Elt Ideal)) (n : Fin 32000) (j : Fin 1024) :
    val_main_v55 (F := Ideal) x1 x3 (ix2 n j)
      = l1 (fun d => val_main_v12 (F := Ideal) x1 (ix2 n d)) (fun d => x3 (ix2 j d)) := by
  rw [val_main_v55_apply, val_main_cst_12_apply]
  refine Eq.trans ?_ (l1_sum _ _)
  refine congrArg (_ + ·) (Finset.sum_congr rfl fun d _ => ?_)
  rw [idx_v55, v54_at]

/-! ## The segments of the two boxes

Query `n`'s box is `(t1, t2, c, w) = B (n, 0 … 3)` with `B = val_main_v12 x1`; target `j`'s is `x3 (j, 0 … 3)`. The
centre-width segment `[c - w/2, c + w/2]` is built as a two-column array by a concatenation and read back by slices. -/

theorem idx_v58 (n : Fin 32000) : idx_main_v56 (idx_main_v57 (idx_main_v58 (ix1 n))) = ix2 n (2 : Fin 4) := by
  funext a
  refine Fin.ext ?_
  match a with
  | ⟨0, _⟩ => show n.val / 1 = n.val; omega
  | ⟨1, _⟩ => rfl

theorem idx_v60 (n : Fin 32000) : idx_main_v56 (idx_main_v59 (idx_main_v60 (ix1 n))) = ix2 n (3 : Fin 4) := by
  funext a
  refine Fin.ext ?_
  match a with
  | ⟨0, _⟩ => show n.val / 1 = n.val; omega
  | ⟨1, _⟩ => rfl

/-- The query's centre. -/
theorem v58_at (x1 : (⟨S16x2000x4, .f32⟩ : BufTy).Contents (Elt Ideal)) (n : Fin 32000) :
    val_main_v58 (F := Ideal) x1 (ix1 n) = val_main_v12 (F := Ideal) x1 (ix2 n (2 : Fin 4)) := by
  rw [val_main_v58_apply, val_main_v57_apply, val_main_v56_apply, idx_v58]

/-- The query's width. -/
theorem v60_at (x1 : (⟨S16x2000x4, .f32⟩ : BufTy).Contents (Elt Ideal)) (n : Fin 32000) :
    val_main_v60 (F := Ideal) x1 (ix1 n) = val_main_v12 (F := Ideal) x1 (ix2 n (3 : Fin 4)) := by
  rw [val_main_v60_apply, val_main_v59_apply, val_main_v56_apply, idx_v60]

/-- The query's centre less half its width. -/
theorem v63_at (x1 : (⟨S16x2000x4, .f32⟩ : BufTy).Contents (Elt Ideal)) (n : Fin 32000) :
    val_main_v63 (F := Ideal) x1 (ix1 n)
      = (val_main_v12 (F := Ideal) x1 (ix2 n (2 : Fin 4)) : EReal)
        - Ideal.ofBits .f32 0x3F000000#32 * (val_main_v12 (F := Ideal) x1 (ix2 n (3 : Fin 4)) : EReal) := by
  rw [val_main_v63_apply, val_main_v62_apply, val_main_v61_apply, val_main_cst_13_apply, v58_at, v60_at]
  rfl

/-- The query's centre plus half its width. -/
theorem v66_at (x1 : (⟨S16x2000x4, .f32⟩ : BufTy).Contents (Elt Ideal)) (n : Fin 32000) :
    val_main_v66 (F := Ideal) x1 (ix1 n)
      = (val_main_v12 (F := Ideal) x1 (ix2 n (2 : Fin 4)) : EReal)
        + Ideal.ofBits .f32 0x3F000000#32 * (val_main_v12 (F := Ideal) x1 (ix2 n (3 : Fin 4)) : EReal) := by
  rw [val_main_v66_apply, val_main_v65_apply, val_main_v64_apply, val_main_cst_14_apply, v58_at, v60_at]
  rfl

theorem idx_v67 (n : Fin 32000) : idx_main_v67 (ix2 n (0 : Fin 1)) = ix1 n := by
  funext a
  match a with
  | ⟨0, _⟩ => rfl

theorem idx_v68 (n : Fin 32000) : idx_main_v68 (ix2 n (0 : Fin 1)) = ix1 n := by
  funext a
  match a with
  | ⟨0, _⟩ => rfl

/-- Column 0 of the query's two-column array is the first piece: the low end. -/
theorem v69_at0 (x1 : (⟨S16x2000x4, .f32⟩ : BufTy).Contents (Elt Ideal)) (n : Fin 32000) :
    val_main_v69 (F := Ideal) x1 (ix2 n (0 : Fin 2)) = val_main_v63 (F := Ideal) x1 (ix1 n) := by
  unfold val_main_v69
  refine (concatenate_pair_apply_left (t := S32000x2) (s₁ := S32000x1) (s₂ := S32000x1) 1 _ _
    concatenates_S32000x1_S32000x1_S32000x2_d1 (ix2 n (0 : Fin 2)) rfl (ix2 n (0 : Fin 1)) ?_).trans ?_
  · intro b
    match b with
    | ⟨0, _⟩ => rfl
    | ⟨1, _⟩ => rfl
  · rw [val_main_v67_apply, idx_v67]

/-- Column 1 is the second piece: the high end. -/
theorem v69_at1 (x1 : (⟨S16x2000x4, .f32⟩ : BufTy).Contents (Elt Ideal)) (n : Fin 32000) :
    val_main_v69 (F := Ideal) x1 (ix2 n (1 : Fin 2)) = val_main_v66 (F := Ideal) x1 (ix1 n) := by
  unfold val_main_v69
  refine (concatenate_pair_apply_right (t := S32000x2) (s₁ := S32000x1) (s₂ := S32000x1) 1 _ _
    concatenates_S32000x1_S32000x1_S32000x2_d1 (ix2 n (1 : Fin 2)) rfl rfl (ix2 n (0 : Fin 1)) ?_ ?_).trans ?_
  · intro b hb
    match b, hb with
    | ⟨0, _⟩, _ => rfl
    | ⟨1, _⟩, hb => exact absurd rfl hb
  · rfl
  · rw [val_main_v68_apply, idx_v68]

theorem idx_v72 (j : Fin 1024) : idx_main_v70 (idx_main_v71 (idx_main_v72 (ix1 j))) = ix2 j (2 : Fin 4) := by
  funext a
  refine Fin.ext ?_
  match a with
  | ⟨0, _⟩ => show j.val / 1 = j.val; omega
  | ⟨1, _⟩ => rfl

theorem idx_v74 (j : Fin 1024) : idx_main_v70 (idx_main_v73 (idx_main_v74 (ix1 j))) = ix2 j (3 : Fin 4) := by
  funext a
  refine Fin.ext ?_
  match a with
  | ⟨0, _⟩ => show j.val / 1 = j.val; omega
  | ⟨1, _⟩ => rfl

/-- The target's centre. -/
theorem v72_at (x3 : (⟨S1024x4, .f32⟩ : BufTy).Contents (Elt Ideal)) (j : Fin 1024) :
    val_main_v72 (F := Ideal) x3 (ix1 j) = x3 (ix2 j (2 : Fin 4)) := by
  rw [val_main_v72_apply, val_main_v71_apply, val_main_v70_apply, idx_v72]

/-- The target's width. -/
theorem v74_at (x3 : (⟨S1024x4, .f32⟩ : BufTy).Contents (Elt Ideal)) (j : Fin 1024) :
    val_main_v74 (F := Ideal) x3 (ix1 j) = x3 (ix2 j (3 : Fin 4)) := by
  rw [val_main_v74_apply, val_main_v73_apply, val_main_v70_apply, idx_v74]

/-- The target's centre less half its width. -/
theorem v77_at (x3 : (⟨S1024x4, .f32⟩ : BufTy).Contents (Elt Ideal)) (j : Fin 1024) :
    val_main_v77 (F := Ideal) x3 (ix1 j)
      = (x3 (ix2 j (2 : Fin 4)) : EReal) - Ideal.ofBits .f32 0x3F000000#32 * (x3 (ix2 j (3 : Fin 4)) : EReal) := by
  rw [val_main_v77_apply, val_main_v76_apply, val_main_v75_apply, val_main_cst_15_apply, v72_at, v74_at]
  rfl

/-- The target's centre plus half its width. -/
theorem v80_at (x3 : (⟨S1024x4, .f32⟩ : BufTy).Contents (Elt Ideal)) (j : Fin 1024) :
    val_main_v80 (F := Ideal) x3 (ix1 j)
      = (x3 (ix2 j (2 : Fin 4)) : EReal) + Ideal.ofBits .f32 0x3F000000#32 * (x3 (ix2 j (3 : Fin 4)) : EReal) := by
  rw [val_main_v80_apply, val_main_v79_apply, val_main_v78_apply, val_main_cst_16_apply, v72_at, v74_at]
  rfl

theorem idx_v81 (j : Fin 1024) : idx_main_v81 (ix2 j (0 : Fin 1)) = ix1 j := by
  funext a
  match a with
  | ⟨0, _⟩ => rfl

theorem idx_v82 (j : Fin 1024) : idx_main_v82 (ix2 j (0 : Fin 1)) = ix1 j := by
  funext a
  match a with
  | ⟨0, _⟩ => rfl

/-- Column 0 of the target's two-column array: the low end. -/
theorem v83_at0 (x3 : (⟨S1024x4, .f32⟩ : BufTy).Contents (Elt Ideal)) (j : Fin 1024) :
    val_main_v83 (F := Ideal) x3 (ix2 j (0 : Fin 2)) = val_main_v77 (F := Ideal) x3 (ix1 j) := by
  unfold val_main_v83
  refine (concatenate_pair_apply_left (t := S1024x2) (s₁ := S1024x1) (s₂ := S1024x1) 1 _ _
    concatenates_S1024x1_S1024x1_S1024x2_d1 (ix2 j (0 : Fin 2)) rfl (ix2 j (0 : Fin 1)) ?_).trans ?_
  · intro b
    match b with
    | ⟨0, _⟩ => rfl
    | ⟨1, _⟩ => rfl
  · rw [val_main_v81_apply, idx_v81]

/-- Column 1: the high end. -/
theorem v83_at1 (x3 : (⟨S1024x4, .f32⟩ : BufTy).Contents (Elt Ideal)) (j : Fin 1024) :
    val_main_v83 (F := Ideal) x3 (ix2 j (1 : Fin 2)) = val_main_v80 (F := Ideal) x3 (ix1 j) := by
  unfold val_main_v83
  refine (concatenate_pair_apply_right (t := S1024x2) (s₁ := S1024x1) (s₂ := S1024x1) 1 _ _
    concatenates_S1024x1_S1024x1_S1024x2_d1 (ix2 j (1 : Fin 2)) rfl rfl (ix2 j (0 : Fin 1)) ?_ ?_).trans ?_
  · intro b hb
    match b, hb with
    | ⟨0, _⟩, _ => rfl
    | ⟨1, _⟩, hb => exact absurd rfl hb
  · rfl
  · rw [val_main_v82_apply, idx_v82]

/-! ## The two overlaps

At `(n, j)` every operand of the intersection-over-union is a query quantity of row `n` broadcast along the row or a
target quantity of column `j` broadcast along the column. -/

theorem idx_q90 (n : Fin 32000) (j : Fin 1024) : idx_main_v84 (idx_main_v85 (idx_main_v86 (idx_main_v90 (ix2 n j)))) = ix2 n (0 : Fin 2) := by
  funext a
  refine Fin.ext ?_
  match a with
  | ⟨0, _⟩ => show n.val / 1 = n.val; omega
  | ⟨1, _⟩ => rfl
theorem idx_q99 (n : Fin 32000) (j : Fin 1024) : idx_main_v93 (idx_main_v94 (idx_main_v95 (idx_main_v99 (ix2 n j)))) = ix2 n (1 : Fin 2) := by
  funext a
  refine Fin.ext ?_
  match a with
  | ⟨0, _⟩ => show n.val / 1 = n.val; omega
  | ⟨1, _⟩ => rfl
theorem idx_q105 (n : Fin 32000) : idx_main_v104 (idx_main_v105 (ix1 n)) = ix2 n (1 : Fin 2) := by
  funext a
  refine Fin.ext ?_
  match a with
  | ⟨0, _⟩ => show n.val / 1 = n.val; omega
  | ⟨1, _⟩ => rfl
theorem idx_q107 (n : Fin 32000) : idx_main_v106 (idx_main_v107 (ix1 n)) = ix2 n (0 : Fin 2) := by
  funext a
  refine Fin.ext ?_
  match a with
  | ⟨0, _⟩ => show n.val / 1 = n.val; omega
  | ⟨1, _⟩ => rfl
theorem idx_q116 (n : Fin 32000) (j : Fin 1024) : idx_main_v109 (idx_main_v116 (ix2 n j)) = ix1 n := by
  funext a
  refine Fin.ext ?_
  match a with
  | ⟨0, _⟩ => rfl
theorem idx_t91 (n : Fin 32000) (j : Fin 1024) : idx_main_v87 (idx_main_v88 (idx_main_v89 (idx_main_v91 (ix2 n j)))) = ix2 j (0 : Fin 2) := by
  funext a
  refine Fin.ext ?_
  match a with
  | ⟨0, _⟩ => show j.val / 1 = j.val; omega
  | ⟨1, _⟩ => rfl
theorem idx_t100 (n : Fin 32000) (j : Fin 1024) : idx_main_v96 (idx_main_v97 (idx_main_v98 (idx_main_v100 (ix2 n j)))) = ix2 j (1 : Fin 2) := by
  funext a
  refine Fin.ext ?_
  match a with
  | ⟨0, _⟩ => show j.val / 1 = j.val; omega
  | ⟨1, _⟩ => rfl
theorem idx_t111 (j : Fin 1024) : idx_main_v110 (idx_main_v111 (ix1 j)) = ix2 j (1 : Fin 2) := by
  funext a
  refine Fin.ext ?_
  match a with
  | ⟨0, _⟩ => show j.val / 1 = j.val; omega
  | ⟨1, _⟩ => rfl
theorem idx_t113 (j : Fin 1024) : idx_main_v112 (idx_main_v113 (ix1 j)) = ix2 j (0 : Fin 2) := by
  funext a
  refine Fin.ext ?_
  match a with
  | ⟨0, _⟩ => show j.val / 1 = j.val; omega
  | ⟨1, _⟩ => rfl
theorem idx_t117 (n : Fin 32000) (j : Fin 1024) : idx_main_v115 (idx_main_v117 (ix2 n j)) = ix1 j := by
  funext a
  refine Fin.ext ?_
  match a with
  | ⟨0, _⟩ => rfl

/-- The query's low end, along the row. -/
theorem v90_at (x1 : (⟨S16x2000x4, .f32⟩ : BufTy).Contents (Elt Ideal)) (n : Fin 32000) (j : Fin 1024) : val_main_v90 (F := Ideal) x1 (ix2 n j) = val_main_v63 (F := Ideal) x1 (ix1 n) := by
  rw [val_main_v90_apply, val_main_v86_apply, val_main_v85_apply, val_main_v84_apply, idx_q90, v69_at0]

/-- The query's high end, along the row. -/
theorem v99_at (x1 : (⟨S16x2000x4, .f32⟩ : BufTy).Contents (Elt Ideal)) (n : Fin 32000) (j : Fin 1024) : val_main_v99 (F := Ideal) x1 (ix2 n j) = val_main_v66 (F := Ideal) x1 (ix1 n) := by
  rw [val_main_v99_apply, val_main_v95_apply, val_main_v94_apply, val_main_v93_apply, idx_q99, v69_at1]

theorem v105_at (x1 : (⟨S16x2000x4, .f32⟩ : BufTy).Contents (Elt Ideal)) (n : Fin 32000) : val_main_v105 (F := Ideal) x1 (ix1 n) = val_main_v66 (F := Ideal) x1 (ix1 n) := by
  rw [val_main_v105_apply, val_main_v104_apply, idx_q105, v69_at1]

theorem v107_at (x1 : (⟨S16x2000x4, .f32⟩ : BufTy).Contents (Elt Ideal)) (n : Fin 32000) : val_main_v107 (F := Ideal) x1 (ix1 n) = val_main_v63 (F := Ideal) x1 (ix1 n) := by
  rw [val_main_v107_apply, val_main_v106_apply, idx_q107, v69_at0]

/-- The query segment's length, along the row. -/
theorem v116_at (x1 : (⟨S16x2000x4, .f32⟩ : BufTy).Contents (Elt Ideal)) (n : Fin 32000) (j : Fin 1024) :
    val_main_v116 (F := Ideal) x1 (ix2 n j)
      = (val_main_v66 (F := Ideal) x1 (ix1 n) : EReal) - (val_main_v63 (F := Ideal) x1 (ix1 n) : EReal) := by
  rw [val_main_v116_apply, val_main_v109_apply, idx_q116, val_main_v108_apply, v105_at, v107_at]
  rfl

/-- The target's low end, along the column. -/
theorem v91_at (x3 : (⟨S1024x4, .f32⟩ : BufTy).Contents (Elt Ideal)) (n : Fin 32000) (j : Fin 1024) : val_main_v91 (F := Ideal) x3 (ix2 n j) = val_main_v77 (F := Ideal) x3 (ix1 j) := by
  rw [val_main_v91_apply, val_main_v89_apply, val_main_v88_apply, val_main_v87_apply, idx_t91, v83_at0]

/-- The target's high end, along the column. -/
theorem v100_at (x3 : (⟨S1024x4, .f32⟩ : BufTy).Contents (Elt Ideal)) (n : Fin 32000) (j : Fin 1024) : val_main_v100 (F := Ideal) x3 (ix2 n j) = val_main_v80 (F := Ideal) x3 (ix1 j) := by
  rw [val_main_v100_apply, val_main_v98_apply, val_main_v97_apply, val_main_v96_apply, idx_t100, v83_at1]

theorem v111_at (x3 : (⟨S1024x4, .f32⟩ : BufTy).Contents (Elt Ideal)) (j : Fin 1024) : val_main_v111 (F := Ideal) x3 (ix1 j) = val_main_v80 (F := Ideal) x3 (ix1 j) := by
  rw [val_main_v111_apply, val_main_v110_apply, idx_t111, v83_at1]

theorem v113_at (x3 : (⟨S1024x4, .f32⟩ : BufTy).Contents (Elt Ideal)) (j : Fin 1024) : val_main_v113 (F := Ideal) x3 (ix1 j) = val_main_v77 (F := Ideal) x3 (ix1 j) := by
  rw [val_main_v113_apply, val_main_v112_apply, idx_t113, v83_at0]

/-- The target segment's length, along the column. -/
theorem v117_at (x3 : (⟨S1024x4, .f32⟩ : BufTy).Contents (Elt Ideal)) (n : Fin 32000) (j : Fin 1024) :
    val_main_v117 (F := Ideal) x3 (ix2 n j)
      = (val_main_v80 (F := Ideal) x3 (ix1 j) : EReal) - (val_main_v77 (F := Ideal) x3 (ix1 j) : EReal) := by
  rw [val_main_v117_apply, val_main_v115_apply, idx_t117, val_main_v114_apply, v111_at, v113_at]
  rfl

/-- The overlap of the centre-width segments. -/
theorem v122_at (x1 : (⟨S16x2000x4, .f32⟩ : BufTy).Contents (Elt Ideal)) (x3 : (⟨S1024x4, .f32⟩ : BufTy).Contents (Elt Ideal)) (n : Fin 32000) (j : Fin 1024) :
    val_main_v122 (F := Ideal) x1 x3 (ix2 n j)
      = iou (val_main_v63 (F := Ideal) x1 (ix1 n)) (val_main_v66 (F := Ideal) x1 (ix1 n))
          (val_main_v77 (F := Ideal) x3 (ix1 j)) (val_main_v80 (F := Ideal) x3 (ix1 j)) := by
  rw [val_main_v122_apply, val_main_v121_apply, val_main_v120_apply, val_main_cst_18_apply, val_main_v119_apply,
    val_main_v118_apply, v116_at, v117_at, val_main_v103_apply, val_main_call0_v1_apply, val_main_call0_v0_apply,
    val_main_cst_17_apply, val_main_v102_apply, val_main_v101_apply, v99_at, v100_at, val_main_v92_apply, v90_at, v91_at]
  refine Eq.trans ?_ (iou_comm (val_main_v63 (F := Ideal) x1 (ix1 n)) (val_main_v66 (F := Ideal) x1 (ix1 n))
    (val_main_v77 (F := Ideal) x3 (ix1 j)) (val_main_v80 (F := Ideal) x3 (ix1 j)))
  generalize val_main_v63 (F := Ideal) x1 (ix1 n) = lo₁
  generalize val_main_v66 (F := Ideal) x1 (ix1 n) = hi₁
  generalize val_main_v77 (F := Ideal) x3 (ix1 j) = lo₂
  generalize val_main_v80 (F := Ideal) x3 (ix1 j) = hi₂
  rfl

theorem idx_q131 (n : Fin 32000) (j : Fin 1024) : idx_main_v123 (idx_main_v125 (idx_main_v126 (idx_main_v127 (idx_main_v131 (ix2 n j))))) = ix2 n (0 : Fin 4) := by
  funext a
  refine Fin.ext ?_
  match a with
  | ⟨0, _⟩ => show n.val / 1 = n.val; omega
  | ⟨1, _⟩ => rfl
theorem idx_q140 (n : Fin 32000) (j : Fin 1024) : idx_main_v123 (idx_main_v134 (idx_main_v135 (idx_main_v136 (idx_main_v140 (ix2 n j))))) = ix2 n (1 : Fin 4) := by
  funext a
  refine Fin.ext ?_
  match a with
  | ⟨0, _⟩ => show n.val / 1 = n.val; omega
  | ⟨1, _⟩ => rfl
theorem idx_q146 (n : Fin 32000) : idx_main_v123 (idx_main_v145 (idx_main_v146 (ix1 n))) = ix2 n (1 : Fin 4) := by
  funext a
  refine Fin.ext ?_
  match a with
  | ⟨0, _⟩ => show n.val / 1 = n.val; omega
  | ⟨1, _⟩ => rfl
theorem idx_q148 (n : Fin 32000) : idx_main_v123 (idx_main_v147 (idx_main_v148 (ix1 n))) = ix2 n (0 : Fin 4) := by
  funext a
  refine Fin.ext ?_
  match a with
  | ⟨0, _⟩ => show n.val / 1 = n.val; omega
  | ⟨1, _⟩ => rfl
theorem idx_q157 (n : Fin 32000) (j : Fin 1024) : idx_main_v150 (idx_main_v157 (ix2 n j)) = ix1 n := by
  funext a
  refine Fin.ext ?_
  match a with
  | ⟨0, _⟩ => rfl
theorem idx_t132 (n : Fin 32000) (j : Fin 1024) : idx_main_v124 (idx_main_v128 (idx_main_v129 (idx_main_v130 (idx_main_v132 (ix2 n j))))) = ix2 j (0 : Fin 4) := by
  funext a
  refine Fin.ext ?_
  match a with
  | ⟨0, _⟩ => show j.val / 1 = j.val; omega
  | ⟨1, _⟩ => rfl
theorem idx_t141 (n : Fin 32000) (j : Fin 1024) : idx_main_v124 (idx_main_v137 (idx_main_v138 (idx_main_v139 (idx_main_v141 (ix2 n j))))) = ix2 j (1 : Fin 4) := by
  funext a
  refine Fin.ext ?_
  match a with
  | ⟨0, _⟩ => show j.val / 1 = j.val; omega
  | ⟨1, _⟩ => rfl
theorem idx_t152 (j : Fin 1024) : idx_main_v124 (idx_main_v151 (idx_main_v152 (ix1 j))) = ix2 j (1 : Fin 4) := by
  funext a
  refine Fin.ext ?_
  match a with
  | ⟨0, _⟩ => show j.val / 1 = j.val; omega
  | ⟨1, _⟩ => rfl
theorem idx_t154 (j : Fin 1024) : idx_main_v124 (idx_main_v153 (idx_main_v154 (ix1 j))) = ix2 j (0 : Fin 4) := by
  funext a
  refine Fin.ext ?_
  match a with
  | ⟨0, _⟩ => show j.val / 1 = j.val; omega
  | ⟨1, _⟩ => rfl
theorem idx_t158 (n : Fin 32000) (j : Fin 1024) : idx_main_v156 (idx_main_v158 (ix2 n j)) = ix1 j := by
  funext a
  refine Fin.ext ?_
  match a with
  | ⟨0, _⟩ => rfl

/-- The query's `t1`, along the row. -/
theorem v131_at (x1 : (⟨S16x2000x4, .f32⟩ : BufTy).Contents (Elt Ideal)) (n : Fin 32000) (j : Fin 1024) :
    val_main_v131 (F := Ideal) x1 (ix2 n j) = val_main_v12 (F := Ideal) x1 (ix2 n (0 : Fin 4)) := by
  rw [val_main_v131_apply, val_main_v127_apply, val_main_v126_apply, val_main_v125_apply, val_main_v123_apply, idx_q131]

/-- The query's `t2`, along the row. -/
theorem v140_at (x1 : (⟨S16x2000x4, .f32⟩ : BufTy).Contents (Elt Ideal)) (n : Fin 32000) (j : Fin 1024) :
    val_main_v140 (F := Ideal) x1 (ix2 n j) = val_main_v12 (F := Ideal) x1 (ix2 n (1 : Fin 4)) := by
  rw [val_main_v140_apply, val_main_v136_apply, val_main_v135_apply, val_main_v134_apply, val_main_v123_apply, idx_q140]

theorem v146_at (x1 : (⟨S16x2000x4, .f32⟩ : BufTy).Contents (Elt Ideal)) (n : Fin 32000) :
    val_main_v146 (F := Ideal) x1 (ix1 n) = val_main_v12 (F := Ideal) x1 (ix2 n (1 : Fin 4)) := by
  rw [val_main_v146_apply, val_main_v145_apply, val_main_v123_apply, idx_q146]

theorem v148_at (x1 : (⟨S16x2000x4, .f32⟩ : BufTy).Contents (Elt Ideal)) (n : Fin 32000) :
    val_main_v148 (F := Ideal) x1 (ix1 n) = val_main_v12 (F := Ideal) x1 (ix2 n (0 : Fin 4)) := by
  rw [val_main_v148_apply, val_main_v147_apply, val_main_v123_apply, idx_q148]

/-- `t2 - t1` of the query, along the row. -/
theorem v157_at (x1 : (⟨S16x2000x4, .f32⟩ : BufTy).Contents (Elt Ideal)) (n : Fin 32000) (j : Fin 1024) :
    val_main_v157 (F := Ideal) x1 (ix2 n j)
      = (val_main_v12 (F := Ideal) x1 (ix2 n (1 : Fin 4)) : EReal) - (val_main_v12 (F := Ideal) x1 (ix2 n (0 : Fin 4)) : EReal) := by
  rw [val_main_v157_apply, val_main_v150_apply, idx_q157, val_main_v149_apply, v146_at, v148_at]
  rfl

/-- The target's `t1`, along the column. -/
theorem v132_at (x3 : (⟨S1024x4, .f32⟩ : BufTy).Contents (Elt Ideal)) (n : Fin 32000) (j : Fin 1024) : val_main_v132 (F := Ideal) x3 (ix2 n j) = x3 (ix2 j (0 : Fin 4)) := by
  rw [val_main_v132_apply, val_main_v130_apply, val_main_v129_apply, val_main_v128_apply, val_main_v124_apply, idx_t132]

/-- The target's `t2`, along the column. -/
theorem v141_at (x3 : (⟨S1024x4, .f32⟩ : BufTy).Contents (Elt Ideal)) (n : Fin 32000) (j : Fin 1024) : val_main_v141 (F := Ideal) x3 (ix2 n j) = x3 (ix2 j (1 : Fin 4)) := by
  rw [val_main_v141_apply, val_main_v139_apply, val_main_v138_apply, val_main_v137_apply, val_main_v124_apply, idx_t141]

theorem v152_at (x3 : (⟨S1024x4, .f32⟩ : BufTy).Contents (Elt Ideal)) (j : Fin 1024) : val_main_v152 (F := Ideal) x3 (ix1 j) = x3 (ix2 j (1 : Fin 4)) := by
  rw [val_main_v152_apply, val_main_v151_apply, val_main_v124_apply, idx_t152]

theorem v154_at (x3 : (⟨S1024x4, .f32⟩ : BufTy).Contents (Elt Ideal)) (j : Fin 1024) : val_main_v154 (F := Ideal) x3 (ix1 j) = x3 (ix2 j (0 : Fin 4)) := by
  rw [val_main_v154_apply, val_main_v153_apply, val_main_v124_apply, idx_t154]

/-- `t2 - t1` of the target, along the column. -/
theorem v158_at (x3 : (⟨S1024x4, .f32⟩ : BufTy).Contents (Elt Ideal)) (n : Fin 32000) (j : Fin 1024) :
    val_main_v158 (F := Ideal) x3 (ix2 n j) = (x3 (ix2 j (1 : Fin 4)) : EReal) - (x3 (ix2 j (0 : Fin 4)) : EReal) := by
  rw [val_main_v158_apply, val_main_v156_apply, idx_t158, val_main_v155_apply, v152_at, v154_at]
  rfl

/-- The overlap of the raw segments `[t1, t2]`. -/
theorem v163_at (x1 : (⟨S16x2000x4, .f32⟩ : BufTy).Contents (Elt Ideal)) (x3 : (⟨S1024x4, .f32⟩ : BufTy).Contents (Elt Ideal)) (n : Fin 32000) (j : Fin 1024) :
    val_main_v163 (F := Ideal) x1 x3 (ix2 n j)
      = iou (val_main_v12 (F := Ideal) x1 (ix2 n (0 : Fin 4))) (val_main_v12 (F := Ideal) x1 (ix2 n (1 : Fin 4)))
          (x3 (ix2 j (0 : Fin 4))) (x3 (ix2 j (1 : Fin 4))) := by
  rw [val_main_v163_apply, val_main_v162_apply, val_main_v161_apply, val_main_cst_20_apply, val_main_v160_apply,
    val_main_v159_apply, v157_at, v158_at, val_main_v144_apply, val_main_call1_v1_apply, val_main_call1_v0_apply,
    val_main_cst_19_apply, val_main_v143_apply, val_main_v142_apply, v140_at, v141_at, val_main_v133_apply, v131_at, v132_at]
  refine Eq.trans ?_ (iou_comm (val_main_v12 (F := Ideal) x1 (ix2 n (0 : Fin 4))) (val_main_v12 (F := Ideal) x1 (ix2 n (1 : Fin 4)))
    (x3 (ix2 j (0 : Fin 4))) (x3 (ix2 j (1 : Fin 4))))
  generalize val_main_v12 (F := Ideal) x1 (ix2 n (0 : Fin 4)) = lo₁
  generalize val_main_v12 (F := Ideal) x1 (ix2 n (1 : Fin 4)) = hi₁
  generalize x3 (ix2 j (0 : Fin 4)) = lo₂
  generalize x3 (ix2 j (1 : Fin 4)) = hi₂
  rfl

/-- Minus the mean of the two overlaps. -/
theorem v167_at (x1 : (⟨S16x2000x4, .f32⟩ : BufTy).Contents (Elt Ideal)) (x3 : (⟨S1024x4, .f32⟩ : BufTy).Contents (Elt Ideal)) (n : Fin 32000) (j : Fin 1024) :
    val_main_v167 (F := Ideal) x1 x3 (ix2 n j)
      = overlap (fun d => val_main_v12 (F := Ideal) x1 (ix2 n d)) (fun d => x3 (ix2 j d)) := by
  rw [val_main_v167_apply, val_main_v166_apply, val_main_cst_21_apply, val_main_v165_apply, val_main_v164_apply,
    v122_at, v163_at, v63_at, v66_at, v77_at, v80_at]
  refine Eq.trans ?_ (overlap_div (fun d => val_main_v12 (F := Ideal) x1 (ix2 n d)) (fun d => x3 (ix2 j d)))
  rfl

/-! ## The cost -/

/-- Entry `(n, j)` of the result: the L1 term, the focal term and the overlap term, each times the word `1`. -/
theorem v175_at (x0 : (⟨S16x2000x80, .f32⟩ : BufTy).Contents (Elt Ideal)) (x1 : (⟨S16x2000x4, .f32⟩ : BufTy).Contents (Elt Ideal)) (x2 : (⟨S1024, .i32⟩ : BufTy).Contents (Elt Ideal)) (x3 : (⟨S1024x4, .f32⟩ : BufTy).Contents (Elt Ideal)) (n : Fin 32000) (j : Fin 1024) :
    val_main_v175 (F := Ideal) x0 x1 x2 x3 (ix2 n j)
      = costRead (fun k => val_main_v0 (F := Ideal) x0 (ix2 n k)) (fun d => val_main_v12 (F := Ideal) x1 (ix2 n d))
          (x2 (ix1 j)) (fun d => x3 (ix2 j d)) := by
  rw [val_main_v175_apply, val_main_v172_apply, val_main_v169_apply, val_main_v168_apply, val_main_cst_22_apply, v55_at,
    val_main_v171_apply, val_main_v170_apply, val_main_cst_23_apply, v48_at, val_main_v174_apply, val_main_v173_apply,
    val_main_cst_24_apply, v167_at]
  rfl

/-- The reference's result array is the cost array, the label's entry read at the wrapped and clamped label. -/
theorem ref_cost (x0 : (⟨S16x2000x80, .f32⟩ : BufTy).Contents (Elt Ideal)) (x1 : (⟨S16x2000x4, .f32⟩ : BufTy).Contents (Elt Ideal)) (x2 : (⟨S1024, .i32⟩ : BufTy).Contents (Elt Ideal)) (x3 : (⟨S1024x4, .f32⟩ : BufTy).Contents (Elt Ideal)) :
    val_main_v175 (F := Ideal) x0 x1 x2 x3 = costReadArr (val_main_v0 (F := Ideal) x0) (val_main_v12 (F := Ideal) x1) x2 x3 := by
  funext i
  obtain ⟨n, j, rfl⟩ : ∃ (n : Fin 32000) (j : Fin 1024), i = ix2 n j := ⟨i 0, i 1, eq_ix2 i⟩
  rw [costReadArr_apply]
  exact v175_at x0 x1 x2 x3 n j

end Cert.ReferenceIdeal.CostValue

end
-- ==== Proof.lean ====
/-
  The certificate of the pairwise matching-cost kernel against its reference.

  Both programs compute, for each of 32000 query rows (80 class logits, a box) and 1024 targets (a class label, a box),
  the L1 distance of the boxes, plus the focal class cost of the row's softmax at the target's label, minus the mean of
  two segment overlaps.  The kernel multiplies squares out and picks the label's entry by a matrix product with the
  labels' 0/1 indicator table; the reference raises to the power 2 and reads the entry at the label.  The two agree
  where every logit is a real number (the power 2 and the square differ only at -∞) and every label is a class number
  in [0, 80) (elsewhere the indicator row is empty while the read is clamped to a real class): the precondition states
  both.  Each side's result is read as the same cost array over the reshaped arguments, reshaped back.
-/
import proofs.«427960_j32598801776747_1_alg».proof.Defs
import proofs.«427960_j32598801776747_1_alg».proof.Proof.Gen.Kernel
import proofs.«427960_j32598801776747_1_alg».proof.Proof.Gen.Kernel.Skeleton
import proofs.«427960_j32598801776747_1_alg».proof.Proof.Gen.Kernel.Launch
import proofs.«427960_j32598801776747_1_alg».proof.Proof.Gen.Kernel.Points
import proofs.«427960_j32598801776747_1_alg».proof.Proof.Gen.Kernel.Frame
import proofs.«427960_j32598801776747_1_alg».proof.Proof.Gen.KernelIdeal
import proofs.«427960_j32598801776747_1_alg».proof.Proof.Gen.KernelIdeal.Skeleton
import proofs.«427960_j32598801776747_1_alg».proof.Proof.Gen.KernelIdeal.Launch
import proofs.«427960_j32598801776747_1_alg».proof.Proof.Gen.KernelIdeal.Points
import proofs.«427960_j32598801776747_1_alg».proof.Proof.Gen.KernelIdeal.Frame
import proofs.«427960_j32598801776747_1_alg».proof.Proof.Gen.ReferenceIdeal
import proofs.«427960_j32598801776747_1_alg».proof.Proof.Gen.Pre_finite_inputs
import proofs.«427960_j32598801776747_1_alg».proof.Proof.Gen.ReferenceIdeal.Run
import proofs.«427960_j32598801776747_1_alg».proof.Proof.Gen.ReferenceIdeal.Read
import proofs.«427960_j32598801776747_1_alg».proof.Proof.CostArray
import proofs.«427960_j32598801776747_1_alg».proof.Proof.Domain
import proofs.«427960_j32598801776747_1_alg».proof.Proof.KernelArray
import proofs.«427960_j32598801776747_1_alg».proof.Proof.ReferenceCost
import Idealize.ShloMosaic.Adequacy
import Idealize.ShloMosaic.Init

noncomputable section

namespace Cert.Proof

open Idealize.ShloMosaic Idealize.SL.Sem Cert.MatchCost

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- A reshape of an array of real numbers is one. -/
theorem shapeCast_real {s t : Shape} (x : s.Idx → EReal) (h : s.ShapeCasts t) (hx : ∀ i, ∃ r : ℝ, x i = (r : EReal)) (j : t.Idx) :
    ∃ r : ℝ, shapeCast t x h j = (r : EReal) := by
  unfold shapeCast
  exact hx _

/-- At the extended reals the two programs, run from memories that agree on the arguments, end with one result: the
    kernel's is the cost array with the label's entry picked by the indicator sum, the reference's the cost array with
    the entry read at the label, and under the precondition (real logits, labels in the class range) they are one array. -/
theorem algebraic : Cert.algebraic_KernelIdeal_ReferenceIdeal := by
  intro m ρ m' ρ' hpre hagree
  refine ⟨_, Cert.KernelIdeal.CostValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v176_eq]
  unfold Cert.ReferenceIdeal.Read.val_main_v176
  rw [Cert.ReferenceIdeal.CostValue.ref_cost, (hagree c).1, (hagree c).2.1, (hagree c).2.2.1, (hagree c).2.2.2]
  have hX := Cert.Domain.logits_real _ _ _ _ (hpre c)
  have hid := Cert.Domain.labels_in_range _ _ _ _ (hpre c)
  unfold Cert.ReferenceIdeal.Read.val_main_v0 Cert.ReferenceIdeal.Read.val_main_v12
  rw [costReadArr_eq _ _ _ _ (fun i => shapeCast_real _ _ hX i) hid]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
